-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x131072 : Shape := ⟨2, ![128, 131072]⟩
abbrev S128 : Shape := ⟨1, ![128]⟩
abbrev S_ : Shape := ⟨0, ![]⟩

class Facts : Prop where
  bcast_S_S128x131072 : S_.BroadcastsInDim S128x131072 (![] : Fin 0 → Fin S128x131072.rank)
  reducesTo_S128x131072_S_d0_1 : S128x131072.ReducesTo [0, 1] S_
  h_S_ : 0 < S_.numel

variable [Facts]

def fn {F : FTy → Type} [FloatOps F] (main_arg0 : FVec F S128x131072 .f32) (main_arg1 : IVec S128 32) : IVec S_ 1 :=
  let main_v0 : FVec F S128x131072 .f32 := Host.absf main_arg0
  let main_cst : FVec F S_ .f32 := constant S_ .f32 0x7F800000#32
  let main_v1 : FVec F S128x131072 .f32 := broadcastInDim S128x131072 ![] bcast_S_S128x131072 main_cst
  let main_v2 : IVec S128x131072 1 := cmpf .olt main_v0 main_v1
  let main_c : IVec S_ 1 := constantI S_ 1 1#1
  let main_v3 : IVec S_ 1 := (fun x v => Host.reduce IntOp.andi x v reducesTo_S128x131072_S_d0_1 h_S_) main_v2 main_c
  main_v3
-- ==== Kernel.lean ====
abbrev S128x131072 : Shape := ⟨2, ![128, 131072]⟩
abbrev S128 : Shape := ⟨1, ![128]⟩
abbrev S2x128x128 : Shape := ⟨3, ![2, 128, 128]⟩
abbrev S2x128x1 : Shape := ⟨3, ![2, 128, 1]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S1x128 : Shape := ⟨2, ![1, 128]⟩
abbrev S_ : Shape := ⟨0, ![]⟩
abbrev S128x16384 : Shape := ⟨2, ![128, 16384]⟩

abbrev nBuf : Space → Nat
  | .hbm => 67
  | .vmem => 8
  | .smem => 0
  | _ => 0

abbrev bufTy : (tb : Table) → Fin (tcTables nBuf tb) → BufTy
  | .hbm, ⟨0, _⟩ => ⟨S128x131072, .f32⟩
  | .hbm, ⟨1, _⟩ => ⟨S128, .i32⟩
  | .hbm, ⟨2, _⟩ => ⟨S2x128x128, .f32⟩
  | .hbm, ⟨3, _⟩ => ⟨S2x128x1, .f32⟩
  | .hbm, ⟨4, _⟩ => ⟨S1x128x128, .f32⟩
  | .hbm, ⟨5, _⟩ => ⟨S128x128, .f32⟩
  | .hbm, ⟨6, _⟩ => ⟨S1x128x128, .f32⟩
  | .hbm, ⟨7, _⟩ => ⟨S128x128, .f32⟩
  | .hbm, ⟨8, _⟩ => ⟨S128x128, .f32⟩
  | .hbm, ⟨9, _⟩ => ⟨S1x128x1, .f32⟩
  | .hbm, ⟨10, _⟩ => ⟨S128x1, .f32⟩
  | .hbm, ⟨11, _⟩ => ⟨S1x128x1, .f32⟩
  | .hbm, ⟨12, _⟩ => ⟨S128x1, .f32⟩
  | .hbm, ⟨13, _⟩ => ⟨S128x1, .f32⟩
  | .hbm, ⟨14, _⟩ => ⟨S128, .f32⟩
  | .hbm, ⟨15, _⟩ => ⟨S128x1, .f32⟩
  | .hbm, ⟨16, _⟩ => ⟨S1x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S_, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S128x1, .i32⟩
  | .hbm, ⟨30, _⟩ => ⟨S1x128, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S128x1, .i1⟩
  | .hbm, ⟨39, _⟩ => ⟨S1x128, .i1⟩
  | .hbm, ⟨40, _⟩ => ⟨S128x128, .i1⟩
  | .hbm, ⟨41, _⟩ => ⟨S128x128, .i1⟩
  | .hbm, ⟨42, _⟩ => ⟨S128x128, .i1⟩
  | .hbm, ⟨43, _⟩ => ⟨S128x128, .i1⟩
  | .hbm, ⟨44, _⟩ => ⟨S128x128, .i1⟩
  | .hbm, ⟨45, _⟩ => ⟨S128x128, .i1⟩
  | .hbm, ⟨46, _⟩ => ⟨S_, .f32⟩
  | .hbm, ⟨47, _⟩ => ⟨S128x128, .f32⟩
  | .hbm, ⟨48, _⟩ => ⟨S128x128, .f32⟩
  | .hbm, ⟨49, _⟩ => ⟨S_, .f32⟩
  | .hbm, ⟨50, _⟩ => ⟨S128, .f32⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S128x16384, .f32⟩
  | .local _ .vmem, ⟨1, _⟩ => ⟨S128x16384, .f32⟩
  | .local _ .vmem, ⟨2, _⟩ => ⟨S1x128x128, .f32⟩
  | .local _ .vmem, ⟨3, _⟩ => ⟨S1x128x128, .f32⟩
  | .local _ .vmem, ⟨4, _⟩ => ⟨S1x128x1, .f32⟩
  | .local _ .vmem, ⟨5, _⟩ => ⟨S1x128x1, .f32⟩
  | .local _ .vmem, ⟨6, _⟩ => ⟨S128x128, .f32⟩
  | .local _ .vmem, ⟨7, _⟩ => ⟨S128x1, .f32⟩
  | _, _ => ⟨S128x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_call0_v15 : Ref sig .tc := ⟨.hbm, 18, rfl⟩
abbrev main_call0_v16 : Ref sig .tc := ⟨.hbm, 19, rfl⟩
abbrev main_call0_cst : Ref sig .tc := ⟨.hbm, 20, rfl⟩
abbrev main_call0_v17 : Ref sig .tc := ⟨.hbm, 21, rfl⟩
abbrev main_call0_v18 : Ref sig .tc := ⟨.hbm, 22, rfl⟩
abbrev main_call0_v19 : Ref sig .tc := ⟨.hbm, 23, rfl⟩
abbrev main_call0_cst_0 : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_v20 : Ref sig .tc := ⟨.hbm, 27, rfl⟩
abbrev main_call0_v21 : Ref sig .tc := ⟨.hbm, 28, rfl⟩
abbrev main_call0_v22 : Ref sig .tc := ⟨.hbm, 29, rfl⟩
abbrev main_call0_v23 : Ref sig .tc := ⟨.hbm, 30, rfl⟩
abbrev main_call0_v24 : Ref sig .tc := ⟨.hbm, 31, rfl⟩
abbrev main_call0_v25 : Ref sig .tc := ⟨.hbm, 32, rfl⟩
abbrev main_call0_v26 : Ref sig .tc := ⟨.hbm, 33, rfl⟩
abbrev main_call0_v27 : Ref sig .tc := ⟨.hbm, 34, rfl⟩
abbrev main_call0_c : Ref sig .tc := ⟨.hbm, 35, rfl⟩
abbrev main_call0_v28 : Ref sig .tc := ⟨.hbm, 36, rfl⟩
abbrev main_call0_v29 : Ref sig .tc := ⟨.hbm, 37, rfl⟩
abbrev main_call0_v30 : Ref sig .tc := ⟨.hbm, 38, rfl⟩
abbrev main_call0_v31 : Ref sig .tc := ⟨.hbm, 39, rfl⟩
abbrev main_call0_v32 : Ref sig .tc := ⟨.hbm, 40, rfl⟩
abbrev main_call0_v33 : Ref sig .tc := ⟨.hbm, 41, rfl⟩
abbrev main_call0_v34 : Ref sig .tc := ⟨.hbm, 42, rfl⟩
abbrev main_call0_v35 : Ref sig .tc := ⟨.hbm, 43, rfl⟩
abbrev main_call0_v36 : Ref sig .tc := ⟨.hbm, 44, rfl⟩
abbrev main_call0_v37 : Ref sig .tc := ⟨.hbm, 45, rfl⟩
abbrev main_call0_cst_1 : Ref sig .tc := ⟨.hbm, 46, rfl⟩
abbrev main_call0_call1_v0 : Ref sig .tc := ⟨.hbm, 47, rfl⟩
abbrev main_call0_v38 : Ref sig .tc := ⟨.hbm, 48, rfl⟩
abbrev main_call0_cst_2 : Ref sig .tc := ⟨.hbm, 49, rfl⟩
abbrev main_call0_v39 : Ref sig .tc := ⟨.hbm, 50, rfl⟩
abbrev main_call0_cst_3 : Ref sig .tc := ⟨.hbm, 51, rfl⟩
abbrev main_call0_call2_v0 : Ref sig .tc := ⟨.hbm, 52, rfl⟩
abbrev main_call0_v40 : Ref sig .tc := ⟨.hbm, 53, rfl⟩
abbrev main_call0_cst_4 : Ref sig .tc := ⟨.hbm, 54, rfl⟩
abbrev main_call0_v41 : Ref sig .tc := ⟨.hbm, 55, rfl⟩
abbrev main_call0_v42 : Ref sig .tc := ⟨.hbm, 56, rfl⟩
abbrev main_call0_cst_5 : Ref sig .tc := ⟨.hbm, 57, rfl⟩
abbrev main_call0_v43 : Ref sig .tc := ⟨.hbm, 58, rfl⟩
abbrev main_call0_v44 : Ref sig .tc := ⟨.hbm, 59, rfl⟩
abbrev main_call0_call3_cst : Ref sig .tc := ⟨.hbm, 60, rfl⟩
abbrev main_call0_call3_v0 : Ref sig .tc := ⟨.hbm, 61, rfl⟩
abbrev main_call0_v45 : Ref sig .tc := ⟨.hbm, 62, rfl⟩
abbrev main_call0_cst_6 : Ref sig .tc := ⟨.hbm, 63, rfl⟩
abbrev main_call0_v46 : Ref sig .tc := ⟨.hbm, 64, rfl⟩
abbrev main_call0_cst_7 : Ref sig .tc := ⟨.hbm, 65, rfl⟩
abbrev main_v0 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  slices_S2x128x1_S1x128x1_0_0_0 : S2x128x1.Slices ![0, 0, 0] S1x128x1
  shapeCasts_S1x128x1_S128x1 : S1x128x1.ShapeCasts S128x1
  slices_S2x128x1_S1x128x1_1_0_0 : S2x128x1.Slices ![1, 0, 0] S1x128x1
  shapeCasts_S128x1_S128 : S128x1.ShapeCasts S128
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S_S128 : S_.BroadcastsInDim S128 (![] : Fin 0 → Fin S128.rank)
  reducesTo_S128x128_S128_d1 : S128x128.ReducesTo [1] S128
  h_S_ : 0 < S_.numel
  reducesTo_S128_S_d0 : S128.ReducesTo [0] S_
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x16384_S128x16384_0_0 : ∀ a, (![0, 0] : Fin 2 → Nat) a + S128x16384.size a ≤ S128x16384.size a
  h_S128x16384 : 0 < S128x16384.numel
  reduces_S128x16384_S128 : S128x16384.Reduces [1] S128
  shapeCasts_S128_S128x1 : S128.ShapeCasts S128x1
  inb_S1x128x128_S1x128x128_0_0_0 : ∀ a, (![0, 0, 0] : Fin 3 → Nat) a + S1x128x128.size a ≤ S1x128x128.size a
  h_S1x128x128 : 0 < S1x128x128.numel
  shapeCasts_S128x128_S1x128x128 : S128x128.ShapeCasts S1x128x128
  inb_S1x128x1_S1x128x1_0_0_0 : ∀ a, (![0, 0, 0] : Fin 3 → Nat) a + S1x128x1.size a ≤ S1x128x1.size a
  h_S1x128x1 : 0 < S1x128x1.numel
  shapeCasts_S128x1_S1x128x1 : S128x1.ShapeCasts S1x128x1
  dot_S128x16384_S128x16384_S128x128_1_1_0_0_n_n_wf : DotDims.WF S128x16384 S128x16384 S128x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S128x131072.size a
  hwx0_0 : ∀ i : grid0.Coords, EltTy.bits .f32 = 32 ∨ (Rect.block (s := S128x131072) S128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S2x128x128.size a
  hwx0_1 : ∀ i : grid0.Coords, EltTy.bits .f32 = 32 ∨ (Rect.block (s := S2x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S2x128x1.size a
  hwx0_2 : ∀ i : grid0.Coords, EltTy.bits .f32 = 32 ∨ (Rect.block (s := S2x128x1) S1x128x1.size (cc0_transform_2 i) (hinb0_2 i)).WholeWords (EltTy.packing .f32)

variable [Facts₀]

def dot_S128x16384_S128x16384_S128x128_1_1_0_0_n_n : DotDims S128x16384 S128x16384 S128x128 where
  lhsContracting := [1]
  rhsContracting := [1]
  lhsNonContracting := [0]
  rhsNonContracting := [0]
  lhsBatch := []
  rhsBatch := []
  wf := dot_S128x16384_S128x16384_S128x128_1_1_0_0_n_n_wf

abbrev win0_0 : Pipeline.Window sig grid0 :=
  Pipeline.Window.ofSpec (Memref.whole main_arg0) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0_0) S1x128x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_1) S1x128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x131072 : Shape := ⟨2, ![128, 131072]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S131072x128 : Shape := ⟨2, ![131072, 128]⟩

abbrev nBuf : Space → Nat
  | .hbm => 59
  | .vmem => 0
  | .smem => 0
  | _ => 0

abbrev bufTy : (tb : Table) → Fin (tcTables nBuf tb) → BufTy
  | .hbm, ⟨0, _⟩ => ⟨S128x131072, .f32⟩
  | .hbm, ⟨1, _⟩ => ⟨S128, .i32⟩
  | .hbm, ⟨2, _⟩ => ⟨S128x131072, .f32⟩
  | .hbm, ⟨3, _⟩ => ⟨S_, .f32⟩
  | .hbm, ⟨4, _⟩ => ⟨S128, .f32⟩
  | .hbm, ⟨5, _⟩ => ⟨S128x1, .f32⟩
  | .hbm, ⟨6, _⟩ => ⟨S1x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S131072x128, .f32⟩
  | .hbm, ⟨11, _⟩ => ⟨S128x128, .f32⟩
  | .hbm, ⟨12, _⟩ => ⟨S_, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S_, .f32⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x1, .i32⟩
  | .hbm, ⟨22, _⟩ => ⟨S1x128, .i32⟩
  | .hbm, ⟨23, _⟩ => ⟨S128x128, .i32⟩
  | .hbm, ⟨24, _⟩ => ⟨S128x128, .i32⟩
  | .hbm, ⟨25, _⟩ => ⟨S128x128, .i1⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S128x1, .i1⟩
  | .hbm, ⟨31, _⟩ => ⟨S1x128, .i1⟩
  | .hbm, ⟨32, _⟩ => ⟨S128x128, .i1⟩
  | .hbm, ⟨33, _⟩ => ⟨S128x128, .i1⟩
  | .hbm, ⟨34, _⟩ => ⟨S128x128, .i1⟩
  | .hbm, ⟨35, _⟩ => ⟨S128x128, .i1⟩
  | .hbm, ⟨36, _⟩ => ⟨S128x128, .i1⟩
  | .hbm, ⟨37, _⟩ => ⟨S128x128, .i1⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128, .f32⟩
  | .hbm, ⟨43, _⟩ => ⟨S_, .f32⟩
  | .hbm, ⟨44, _⟩ => ⟨S128x128, .f32⟩
  | .hbm, ⟨45, _⟩ => ⟨S128x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S128x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_call1_v0 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_cst_4 : Ref sig .tc := ⟨.hbm, 43, rfl⟩
abbrev main_call2_v0 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_call3_cst : Ref sig .tc := ⟨.hbm, 52, rfl⟩
abbrev main_call3_v0 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  reducesTo_S128x131072_S128_d1 : S128x131072.ReducesTo [1] S128
  h_S_ : 0 < S_.numel
  bcast_S128_S128x1_0 : S128.BroadcastsInDim S128x1 (![0] : Fin 1 → Fin S128x1.rank)
  transposes_S128x1_S1x128_1_0 : S128x1.Transposes [1, 0] S1x128
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  transposes_S128x131072_S131072x128_1_0 : S128x131072.Transposes [1, 0] S131072x128
  bcast_S_S128x128 : S_.BroadcastsInDim S128x128 (![] : Fin 0 → Fin S128x128.rank)
  bcast_S128_S1x128_1 : S128.BroadcastsInDim S1x128 (![1] : Fin 1 → Fin S1x128.rank)
  bcast_S_S128 : S_.BroadcastsInDim S128 (![] : Fin 0 → Fin S128.rank)
  reducesTo_S128x128_S128_d1 : S128x128.ReducesTo [1] S128
  reducesTo_S128_S_d0 : S128.ReducesTo [0] S_
  dot_S128x131072_S131072x128_S128x128_1_0_0_1_n_n_wf : DotDims.WF S128x131072 S131072x128 S128x128 [1] [0] [0] [1] [] []

variable [Facts₀]

def dot_S128x131072_S131072x128_S128x128_1_0_0_1_n_n : DotDims S128x131072 S131072x128 S128x128 where
  lhsContracting := [1]
  rhsContracting := [0]
  lhsNonContracting := [0]
  rhsNonContracting := [1]
  lhsBatch := []
  rhsBatch := []
  wf := dot_S128x131072_S131072x128_S128x128_1_0_0_1_n_n_wf

class Facts : Prop extends Facts₀ where

variable [Facts]
-- ==== Proof.Pieces.lean ====
import proofs.«419732_j23716809408616_3_alg».proof.Proof.Gen.KernelIdeal.Frame
import Idealize.ShloMosaic.Lib.Pipeline.Value
import Idealize.ShloMosaic.Lib.Tactic

/-!
# What one grid step leaves in the two accumulators

The kernel keeps two accumulators in scratch memory across the grid steps of one core: `acc`, f32[128, 128],
for the partial Gram matrix and `acc_sq`, f32[128, 1], for the partial squared norms. A step loads its block
`x` of 16384 columns and stores `acc + x · xᵀ` and `acc_sq + rowsum (x ∘ x)`. At a core's first step (case A)
both accumulators are first set to zero, so the step leaves `0 + x · xᵀ` and `0 + rowsum (x ∘ x)`; at a core's
last step (case C) the accumulators are then copied, with a leading unit axis, into the two output blocks; the
steps between (case B) only accumulate. Each lemma reads what a case's stores leave in one buffer as the value of
the store that covers it.
-/

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem gram_A (c : Dev nD) (i : grid0.Coords) (arg2 : Memref sig .tc .vmem S128x16384 .f32) (harg2 : arg2.IsWhole)
    (arg3 : Memref sig .tc .vmem S1x128x128 .f32) (harg3 : arg3.IsWhole) (arg4 : Memref sig .tc .vmem S1x128x1 .f32) (harg4 : arg4.IsWhole)
    (arg5 : Memref sig .tc .vmem S128x128 .f32) (harg5 : arg5.IsWhole) (arg6 : Memref sig .tc .vmem S128x1 .f32) (harg6 : arg6.IsWhole)
    (hc0 : cond0_0 i) (hc1 : ¬cond0_1 i) (x0 : Vec F S128x16384 .f32) :
    sout0_A_0 c i arg2 harg2 arg3 harg3 arg4 harg4 arg5 harg5 arg6 harg6 hc0 hc1 x0 = k0_pay3 x0 (k0_pay1 (F := F)) := by
  unfold sout0_A_0
  rw [View.read_writes_eq_canon _ _ _ (scover0_A_0 c i arg2 harg2 arg3 harg3 arg4 harg4 arg5 harg5 arg6 harg6 hc0 hc1 x0)]
  unfold kernelRun0_A
  dsimp only
  sl_unfold_words
  rw [View.canon_cons_unit_zero (S := S128x128) hz2, View.readCov_unit_zero (S := S128x128) _ hz2]
  simp only [View.readAt_eq_ld, harg2.read_unread, harg5.read_unread, harg6.read_unread,
    View.ld_unit_zero (S := S128x16384) hz2, View.ld_unit_zero (S := S128x128) hz2, View.ld_unit_zero (S := S128x1) hz2,
    View.readCov_unit_zero (S := S128x128) _ hz2, View.readCov_unit_zero (S := S128x1) _ hz2]

theorem sq_A (c : Dev nD) (i : grid0.Coords) (arg2 : Memref sig .tc .vmem S128x16384 .f32) (harg2 : arg2.IsWhole)
    (arg3 : Memref sig .tc .vmem S1x128x128 .f32) (harg3 : arg3.IsWhole) (arg4 : Memref sig .tc .vmem S1x128x1 .f32) (harg4 : arg4.IsWhole)
    (arg5 : Memref sig .tc .vmem S128x128 .f32) (harg5 : arg5.IsWhole) (arg6 : Memref sig .tc .vmem S128x1 .f32) (harg6 : arg6.IsWhole)
    (hc0 : cond0_0 i) (hc1 : ¬cond0_1 i) (x0 : Vec F S128x16384 .f32) :
    sout0_A_1 c i arg2 harg2 arg3 harg3 arg4 harg4 arg5 harg5 arg6 harg6 hc0 hc1 x0 = k0_pay4 x0 (k0_pay2 (F := F)) := by
  unfold sout0_A_1
  rw [View.read_writes_eq_canon _ _ _ (scover0_A_1 c i arg2 harg2 arg3 harg3 arg4 harg4 arg5 harg5 arg6 harg6 hc0 hc1 x0)]
  unfold kernelRun0_A
  dsimp only
  sl_unfold_words
  rw [View.canon_cons_unit_zero (S := S128x1) hz2, View.readCov_unit_zero (S := S128x1) _ hz2]
  simp only [View.readAt_eq_ld, harg2.read_unread, harg5.read_unread, harg6.read_unread,
    View.ld_unit_zero (S := S128x16384) hz2, View.ld_unit_zero (S := S128x128) hz2, View.ld_unit_zero (S := S128x1) hz2,
    View.readCov_unit_zero (S := S128x128) _ hz2, View.readCov_unit_zero (S := S128x1) _ hz2]

theorem gram_B (c : Dev nD) (i : grid0.Coords) (arg2 : Memref sig .tc .vmem S128x16384 .f32) (harg2 : arg2.IsWhole)
    (arg3 : Memref sig .tc .vmem S1x128x128 .f32) (harg3 : arg3.IsWhole) (arg4 : Memref sig .tc .vmem S1x128x1 .f32) (harg4 : arg4.IsWhole)
    (arg5 : Memref sig .tc .vmem S128x128 .f32) (harg5 : arg5.IsWhole) (arg6 : Memref sig .tc .vmem S128x1 .f32) (harg6 : arg6.IsWhole)
    (hc0 : ¬cond0_0 i) (hc1 : ¬cond0_1 i) (x0 : Vec F S128x16384 .f32) (xs0 : Vec F S128x128 .f32) (xs1 : Vec F S128x1 .f32) :
    sout0_B_0 c i arg2 harg2 arg3 harg3 arg4 harg4 arg5 harg5 arg6 harg6 hc0 hc1 x0 xs0 xs1 = k0_pay3 x0 xs0 := by
  unfold sout0_B_0
  rw [View.read_writes_eq_canon _ _ _ (scover0_B_0 c i arg2 harg2 arg3 harg3 arg4 harg4 arg5 harg5 arg6 harg6 hc0 hc1 x0 xs0 xs1)]
  unfold kernelRun0_B
  dsimp only
  sl_unfold_words
  rw [View.canon_unit_zero hz2]
  simp only [View.readAt_eq_ld, harg2.read_unread, harg5.read_unread, harg6.read_unread,
    View.ld_unit_zero (S := S128x16384) hz2, View.ld_unit_zero (S := S128x128) hz2, View.ld_unit_zero (S := S128x1) hz2,
    View.readCov_unit_zero (S := S128x128) _ hz2, View.readCov_unit_zero (S := S128x1) _ hz2]

theorem sq_B (c : Dev nD) (i : grid0.Coords) (arg2 : Memref sig .tc .vmem S128x16384 .f32) (harg2 : arg2.IsWhole)
    (arg3 : Memref sig .tc .vmem S1x128x128 .f32) (harg3 : arg3.IsWhole) (arg4 : Memref sig .tc .vmem S1x128x1 .f32) (harg4 : arg4.IsWhole)
    (arg5 : Memref sig .tc .vmem S128x128 .f32) (harg5 : arg5.IsWhole) (arg6 : Memref sig .tc .vmem S128x1 .f32) (harg6 : arg6.IsWhole)
    (hc0 : ¬cond0_0 i) (hc1 : ¬cond0_1 i) (x0 : Vec F S128x16384 .f32) (xs0 : Vec F S128x128 .f32) (xs1 : Vec F S128x1 .f32) :
    sout0_B_1 c i arg2 harg2 arg3 harg3 arg4 harg4 arg5 harg5 arg6 harg6 hc0 hc1 x0 xs0 xs1 = k0_pay4 x0 xs1 := by
  unfold sout0_B_1
  rw [View.read_writes_eq_canon _ _ _ (scover0_B_1 c i arg2 harg2 arg3 harg3 arg4 harg4 arg5 harg5 arg6 harg6 hc0 hc1 x0 xs0 xs1)]
  unfold kernelRun0_B
  dsimp only
  sl_unfold_words
  rw [View.canon_unit_zero hz2]
  simp only [View.readAt_eq_ld, harg2.read_unread, harg5.read_unread, harg6.read_unread,
    View.ld_unit_zero (S := S128x16384) hz2, View.ld_unit_zero (S := S128x128) hz2, View.ld_unit_zero (S := S128x1) hz2,
    View.readCov_unit_zero (S := S128x128) _ hz2, View.readCov_unit_zero (S := S128x1) _ hz2]

theorem gram_C (c : Dev nD) (i : grid0.Coords) (arg2 : Memref sig .tc .vmem S128x16384 .f32) (harg2 : arg2.IsWhole)
    (arg3 : Memref sig .tc .vmem S1x128x128 .f32) (harg3 : arg3.IsWhole) (arg4 : Memref sig .tc .vmem S1x128x1 .f32) (harg4 : arg4.IsWhole)
    (arg5 : Memref sig .tc .vmem S128x128 .f32) (harg5 : arg5.IsWhole) (arg6 : Memref sig .tc .vmem S128x1 .f32) (harg6 : arg6.IsWhole)
    (hc0 : ¬cond0_0 i) (hc1 : cond0_1 i) (x0 : Vec F S128x16384 .f32) (xs0 : Vec F S128x128 .f32) (xs1 : Vec F S128x1 .f32) :
    sout0_C_0 c i arg2 harg2 arg3 harg3 arg4 harg4 arg5 harg5 arg6 harg6 hc0 hc1 x0 xs0 xs1 = k0_pay3 x0 xs0 := by
  unfold sout0_C_0
  rw [View.read_writes_eq_canon _ _ _ (scover0_C_0 c i arg2 harg2 arg3 harg3 arg4 harg4 arg5 harg5 arg6 harg6 hc0 hc1 x0 xs0 xs1)]
  unfold kernelRun0_C
  dsimp only
  sl_unfold_words
  rw [View.canon_unit_zero hz2]
  simp only [View.readAt_eq_ld, harg2.read_unread, harg5.read_unread, harg6.read_unread,
    View.ld_unit_zero (S := S128x16384) hz2, View.ld_unit_zero (S := S128x128) hz2, View.ld_unit_zero (S := S128x1) hz2,
    View.readCov_unit_zero (S := S128x128) _ hz2, View.readCov_unit_zero (S := S128x1) _ hz2]

theorem sq_C (c : Dev nD) (i : grid0.Coords) (arg2 : Memref sig .tc .vmem S128x16384 .f32) (harg2 : arg2.IsWhole)
    (arg3 : Memref sig .tc .vmem S1x128x128 .f32) (harg3 : arg3.IsWhole) (arg4 : Memref sig .tc .vmem S1x128x1 .f32) (harg4 : arg4.IsWhole)
    (arg5 : Memref sig .tc .vmem S128x128 .f32) (harg5 : arg5.IsWhole) (arg6 : Memref sig .tc .vmem S128x1 .f32) (harg6 : arg6.IsWhole)
    (hc0 : ¬cond0_0 i) (hc1 : cond0_1 i) (x0 : Vec F S128x16384 .f32) (xs0 : Vec F S128x128 .f32) (xs1 : Vec F S128x1 .f32) :
    sout0_C_1 c i arg2 harg2 arg3 harg3 arg4 harg4 arg5 harg5 arg6 harg6 hc0 hc1 x0 xs0 xs1 = k0_pay4 x0 xs1 := by
  unfold sout0_C_1
  rw [View.read_writes_eq_canon _ _ _ (scover0_C_1 c i arg2 harg2 arg3 harg3 arg4 harg4 arg5 harg5 arg6 harg6 hc0 hc1 x0 xs0 xs1)]
  unfold kernelRun0_C
  dsimp only
  sl_unfold_words
  rw [View.canon_unit_zero hz2]
  simp only [View.readAt_eq_ld, harg2.read_unread, harg5.read_unread, harg6.read_unread,
    View.ld_unit_zero (S := S128x16384) hz2, View.ld_unit_zero (S := S128x128) hz2, View.ld_unit_zero (S := S128x1) hz2,
    View.readCov_unit_zero (S := S128x128) _ hz2, View.readCov_unit_zero (S := S128x1) _ hz2]

theorem gramOut_C (c : Dev nD) (i : grid0.Coords) (arg2 : Memref sig .tc .vmem S128x16384 .f32) (harg2 : arg2.IsWhole)
    (arg3 : Memref sig .tc .vmem S1x128x128 .f32) (harg3 : arg3.IsWhole) (arg4 : Memref sig .tc .vmem S1x128x1 .f32) (harg4 : arg4.IsWhole)
    (arg5 : Memref sig .tc .vmem S128x128 .f32) (harg5 : arg5.IsWhole) (arg6 : Memref sig .tc .vmem S128x1 .f32) (harg6 : arg6.IsWhole)
    (hc0 : ¬cond0_0 i) (hc1 : cond0_1 i) (x0 : Vec F S128x16384 .f32) (xs0 : Vec F S128x128 .f32) (xs1 : Vec F S128x1 .f32) :
    out0_C_1 c i arg2 harg2 arg3 harg3 arg4 harg4 arg5 harg5 arg6 harg6 hc0 hc1 x0 xs0 xs1 = k0_pay5 (k0_pay3 x0 xs0) := by
  unfold out0_C_1
  rw [View.read_writes_eq_canon _ _ _ (cover0_C_1 c i arg2 harg2 arg3 harg3 arg4 harg4 arg5 harg5 arg6 harg6 hc0 hc1 x0 xs0 xs1)]
  unfold kernelRun0_C
  dsimp only
  sl_unfold_words
  rw [View.canon_unit_zero hz3]
  simp only [View.readAt_eq_ld, harg2.read_unread, harg5.read_unread, harg6.read_unread,
    View.ld_unit_zero (S := S128x16384) hz2, View.ld_unit_zero (S := S128x128) hz2, View.ld_unit_zero (S := S128x1) hz2,
    View.readCov_unit_zero (S := S128x128) _ hz2, View.readCov_unit_zero (S := S128x1) _ hz2]

theorem sqOut_C (c : Dev nD) (i : grid0.Coords) (arg2 : Memref sig .tc .vmem S128x16384 .f32) (harg2 : arg2.IsWhole)
    (arg3 : Memref sig .tc .vmem S1x128x128 .f32) (harg3 : arg3.IsWhole) (arg4 : Memref sig .tc .vmem S1x128x1 .f32) (harg4 : arg4.IsWhole)
    (arg5 : Memref sig .tc .vmem S128x128 .f32) (harg5 : arg5.IsWhole) (arg6 : Memref sig .tc .vmem S128x1 .f32) (harg6 : arg6.IsWhole)
    (hc0 : ¬cond0_0 i) (hc1 : cond0_1 i) (x0 : Vec F S128x16384 .f32) (xs0 : Vec F S128x128 .f32) (xs1 : Vec F S128x1 .f32) :
    out0_C_2 c i arg2 harg2 arg3 harg3 arg4 harg4 arg5 harg5 arg6 harg6 hc0 hc1 x0 xs0 xs1 = k0_pay6 (k0_pay4 x0 xs1) := by
  unfold out0_C_2
  rw [View.read_writes_eq_canon _ _ _ (cover0_C_2 c i arg2 harg2 arg3 harg3 arg4 harg4 arg5 harg5 arg6 harg6 hc0 hc1 x0 xs0 xs1)]
  unfold kernelRun0_C
  dsimp only
  sl_unfold_words
  rw [View.canon_unit_zero hz3]
  simp only [View.readAt_eq_ld, harg2.read_unread, harg5.read_unread, harg6.read_unread,
    View.ld_unit_zero (S := S128x16384) hz2, View.ld_unit_zero (S := S128x128) hz2, View.ld_unit_zero (S := S128x1) hz2,
    View.readCov_unit_zero (S := S128x128) _ hz2, View.readCov_unit_zero (S := S128x1) _ hz2]

end Cert.KernelIdeal.KValue

end
-- ==== Proof.Chain.lean ====
import proofs.«419732_j23716809408616_3_alg».proof.Proof.Pieces

/-!
# The accumulators along the grid

The grid has eight points, four to a core: point `n` is step `n % 4` of core `n / 4` and loads block `n` of the
input's columns. The accumulators are set to zero at a core's first step (points 0 and 4) and updated at the other
steps from what the step before left; so after point `n` they hold the fold, from the core's first point on, of
"add this block's partial product" (`k0_pay3`) and "add this block's partial squared norms" (`k0_pay4`). At a core's last
step (points 3 and 7) the two outputs' blocks receive copies of the accumulators.
-/

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ)

/-- The block of 16384 columns the step at point `n` loads. -/
abbrev xblk (c : Dev nD) (n : ℕ) (h : n < cfg0.N) : Vec F S128x16384 .f32 := iblk m c 0 ⟨n, h⟩

/-- The Gram accumulator after the step at point `n`. -/
def gramScr (c : Dev nD) (n : ℕ) (h : n < cfg0.N) : Vec F S128x128 .f32 := (outsAt0 m c n h).2.2.1

/-- The squared-norm accumulator after the step at point `n`. -/
def sqScr (c : Dev nD) (n : ℕ) (h : n < cfg0.N) : Vec F S128x1 .f32 := (outsAt0 m c n h).2.2.2

/-- At a core's first step the Gram accumulator is the zero matrix plus the block's product. -/
theorem gramScr_reset (c : Dev nD) (n : ℕ) (h : n < cfg0.N) (h0 : n % 4 = 0) :
    gramScr m c n h = k0_pay3 (xblk m c n h) (k0_pay1 (F := F)) := by
  have h1 : ¬n % 4 = 3 := by omega
  unfold gramScr
  rw [outsAt0_A m c ⟨n, h⟩ h0 h1]
  dsimp only
  rw [gram_A]

/-- At a later step it is what the step before left plus the block's product. -/
theorem gramScr_step (c : Dev nD) (n : ℕ) (h : n + 1 < cfg0.N) (h0 : ¬(n + 1) % 4 = 0) :
    gramScr m c (n + 1) h = k0_pay3 (xblk m c (n + 1) h) (gramScr m c n (Nat.lt_of_succ_lt h)) := by
  unfold gramScr
  by_cases h1 : (n + 1) % 4 = 3
  · rw [outsAt0_C m c ⟨n + 1, h⟩ h0 h1]
    dsimp only
    rw [gram_C]
    rfl
  · rw [outsAt0_B m c ⟨n + 1, h⟩ h0 h1]
    dsimp only
    rw [gram_B]
    rfl

theorem sqScr_reset (c : Dev nD) (n : ℕ) (h : n < cfg0.N) (h0 : n % 4 = 0) :
    sqScr m c n h = k0_pay4 (xblk m c n h) (k0_pay2 (F := F)) := by
  have h1 : ¬n % 4 = 3 := by omega
  unfold sqScr
  rw [outsAt0_A m c ⟨n, h⟩ h0 h1]
  dsimp only
  rw [sq_A]

theorem sqScr_step (c : Dev nD) (n : ℕ) (h : n + 1 < cfg0.N) (h0 : ¬(n + 1) % 4 = 0) :
    sqScr m c (n + 1) h = k0_pay4 (xblk m c (n + 1) h) (sqScr m c n (Nat.lt_of_succ_lt h)) := by
  unfold sqScr
  by_cases h1 : (n + 1) % 4 = 3
  · rw [outsAt0_C m c ⟨n + 1, h⟩ h0 h1]
    dsimp only
    rw [sq_C]
    rfl
  · rw [outsAt0_B m c ⟨n + 1, h⟩ h0 h1]
    dsimp only
    rw [sq_B]
    rfl

/-- So after point `t` the Gram accumulator is the fold over the core's points up to `t`. -/
theorem gramScr_fold (c : Dev nD) (t : ℕ) (ht : t < cfg0.N) (h' : 4 * (t / 4) + t % 4 < cfg0.N) :
    gramScr m c t ht
      = Pipeline.accAt (fun n h => k0_pay3 (xblk m c n h) (k0_pay1 (F := F))) (fun n h acc => k0_pay3 (xblk m c n h) acc)
          (4 * (t / 4)) (t % 4) h' :=
  Pipeline.eq_accAt_of_mod (gramScr m c) 4 _ _ (fun n h h0 => gramScr_reset m c n h h0)
    (fun n h h0 => gramScr_step m c n h h0) (by decide) t ht h'

/-- And the squared-norm accumulator likewise. -/
theorem sqScr_fold (c : Dev nD) (t : ℕ) (ht : t < cfg0.N) (h' : 4 * (t / 4) + t % 4 < cfg0.N) :
    sqScr m c t ht
      = Pipeline.accAt (fun n h => k0_pay4 (xblk m c n h) (k0_pay2 (F := F))) (fun n h acc => k0_pay4 (xblk m c n h) acc)
          (4 * (t / 4)) (t % 4) h' :=
  Pipeline.eq_accAt_of_mod (sqScr m c) 4 _ _ (fun n h h0 => sqScr_reset m c n h h0)
    (fun n h h0 => sqScr_step m c n h h0) (by decide) t ht h'

/-- At a core's last step the Gram output's block receives the accumulator, with a leading unit axis. -/
theorem gramOut_last (c : Dev nD) (n : ℕ) (h : n < cfg0.N) (h1 : n % 4 = 3) :
    (outsAt0 m c n h).1 = k0_pay5 (gramScr m c n h) := by
  have h0 : ¬n % 4 = 0 := by omega
  unfold gramScr
  rw [outsAt0_C m c ⟨n, h⟩ h0 h1]
  dsimp only
  rw [gramOut_C, gram_C]

/-- And the squared-norm output's block the other accumulator. -/
theorem sqOut_last (c : Dev nD) (n : ℕ) (h : n < cfg0.N) (h1 : n % 4 = 3) :
    (outsAt0 m c n h).2.1 = k0_pay6 (sqScr m c n h) := by
  have h0 : ¬n % 4 = 0 := by omega
  unfold sqScr
  rw [outsAt0_C m c ⟨n, h⟩ h0 h1]
  dsimp only
  rw [sqOut_C, sq_C]

end Cert.KernelIdeal.KValue

end
-- ==== Proof.Arrays.lean ====
import proofs.«419732_j23716809408616_3_alg».proof.Proof.Chain
import Idealize.ShloMosaic.Lib.ValueIdx

/-!
# The two arrays the region leaves

Each output array has two blocks along its leading axis, one per core. A core's block is written back once, after
the core's last grid step (point 3 for core 0, point 7 for core 1), and then holds that core's accumulator. The two
write-backs cover the array, so after the run the array is known everywhere.
-/

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ)

/-- Points 3 and 7 are points of the grid. -/
theorem pt3 : 3 < cfg0.N := by rw [show cfg0.N = 8 from N_0]; decide
theorem pt7 : 7 < cfg0.N := by rw [show cfg0.N = 8 from N_0]; decide

/-! ### Output 1: the per-core partial Gram matrices -/

/-- Where the two write-backs land: point 3 writes block 0 along the leading axis, point 7 block 1. -/
theorem idx1_3 : win0_1.index t0_3 0 = 0 ∧ win0_1.index t0_3 1 = 0 ∧ win0_1.index t0_3 2 = 0 := by decide +kernel
theorem idx1_7 : win0_1.index t0_7 0 = 1 ∧ win0_1.index t0_7 1 = 0 ∧ win0_1.index t0_7 2 = 0 := by decide +kernel

/-- What the array holds after the run: core 0's block is the accumulator after point 3, core 1's after point 7,
    each with its leading unit axis. -/
def gramArr (c : Dev nD) : FVec F S2x128x128 .f32 := fun j =>
  if (j 0).val = 0 then k0_pay5 (gramScr m c 3 pt3) (ix3 (0 : Fin 1) (j 1) (j 2))
  else k0_pay5 (gramScr m c 7 pt7) (ix3 (0 : Fin 1) (j 1) (j 2))

/-- An index of the array is in point `t`'s block iff each coordinate is in the block's range on its axis. -/
theorem mem_blk1 (t : Fin cfg0.N) (i : S2x128x128.Idx) :
    i ∈ ((cfg0.win 1).blk t).view.set ↔ ∀ a : Fin 3, win0_1.index t a * S1x128x128.size a ≤ (i a).val ∧ (i a).val < win0_1.index t a * S1x128x128.size a + S1x128x128.size a := by
  show i ∈ ((View.whole main_call0_v0_0).slice (win0_1.rect t)).set ↔ _
  rw [View.set_slice_whole, Rect.mem_set_unit]
  exact Iff.rfl

/-- What a core's last point writes back is its block of `gramArr`. -/
theorem flushed1_eq (c : Dev nD) (t : Fin cfg0.N) (hf : (cfg0.win 1).flush t = true) :
    (dats m 0 c).flushed 1 t = ((cfg0.win 1).blk t).view.read (Elt F) (gramArr m c) := by
  have hN : cfg0.N = 8 := N_0
  have h3 : t.val % 4 = 3 := (flush0_1 t).mp hf
  have ht := t.isLt
  show (cfg0.win 1).cut (grid0.coords t) ((dats m 0 c).after 1 t) = _
  rw [after0_1, gramOut_last m c t.val t.isLt h3]
  rcases (show t.val = 3 ∨ t.val = 7 by omega) with e | e
  · obtain rfl : t = t0_3 := Fin.ext e
    obtain ⟨i0, i1, i2⟩ := idx1_3
    funext y
    have hy0 : (y 0).val < 1 := (y 0).isLt
    have ee : ((cfg0.win 1).blk t0_3).view.emb y = ix3 (0 : Fin 2) (y 1) (y 2) := funext fun a => Fin.ext (by
      match a with
      | ⟨0, _⟩ => show win0_1.index t0_3 0 * 1 + 1 * (y 0).val = 0; omega
      | ⟨1, _⟩ => show win0_1.index t0_3 1 * 128 + 1 * (y 1).val = (y 1).val; omega
      | ⟨2, _⟩ => show win0_1.index t0_3 2 * 128 + 1 * (y 2).val = (y 2).val; omega)
    rw [View.read_apply, ee]
    have ey : y = ix3 (0 : Fin 1) (y 1) (y 2) := funext fun a => Fin.ext (by
      match a with
      | ⟨0, _⟩ => show (y 0).val = 0; omega
      | ⟨1, _⟩ => rfl
      | ⟨2, _⟩ => rfl)
    show k0_pay5 (gramScr m c 3 _) y = gramArr m c (ix3 (0 : Fin 2) (y 1) (y 2))
    unfold gramArr
    refine Eq.trans ?_ (if_pos (show ((ix3 (0 : Fin 2) (y 1) (y 2)) (0 : Fin 3)).val = 0 from rfl)).symm
    exact congrArg _ ey
  · obtain rfl : t = t0_7 := Fin.ext e
    obtain ⟨i0, i1, i2⟩ := idx1_7
    funext y
    have hy0 : (y 0).val < 1 := (y 0).isLt
    have ee : ((cfg0.win 1).blk t0_7).view.emb y = ix3 (1 : Fin 2) (y 1) (y 2) := funext fun a => Fin.ext (by
      match a with
      | ⟨0, _⟩ => show win0_1.index t0_7 0 * 1 + 1 * (y 0).val = 1; omega
      | ⟨1, _⟩ => show win0_1.index t0_7 1 * 128 + 1 * (y 1).val = (y 1).val; omega
      | ⟨2, _⟩ => show win0_1.index t0_7 2 * 128 + 1 * (y 2).val = (y 2).val; omega)
    rw [View.read_apply, ee]
    have ey : y = ix3 (0 : Fin 1) (y 1) (y 2) := funext fun a => Fin.ext (by
      match a with
      | ⟨0, _⟩ => show (y 0).val = 0; omega
      | ⟨1, _⟩ => rfl
      | ⟨2, _⟩ => rfl)
    show k0_pay5 (gramScr m c 7 _) y = gramArr m c (ix3 (1 : Fin 2) (y 1) (y 2))
    unfold gramArr
    refine Eq.trans ?_ (if_neg (show ¬((ix3 (1 : Fin 2) (y 1) (y 2)) (0 : Fin 3)).val = 0 from Nat.one_ne_zero)).symm
    exact congrArg _ ey

/-- The two write-backs cover the array: block 0 is point 3's, block 1 point 7's. -/
theorem cover1 (j : S2x128x128.Idx) :
    ∃ t : Fin cfg0.N, (cfg0.win 1).flush t = true ∧ j ∈ ((cfg0.win 1).blk t).view.set := by
  have h0 : (j 0).val < 2 := (j 0).isLt
  have h1 : (j 1).val < 128 := (j 1).isLt
  have h2 : (j 2).val < 128 := (j 2).isLt
  rcases (show (j 0).val = 0 ∨ (j 0).val = 1 by omega) with e | e
  · obtain ⟨i0, i1, i2⟩ := idx1_3
    refine ⟨t0_3, (flush0_1 t0_3).mpr rfl, ?_⟩
    rw [mem_blk1]
    intro a
    match a with
    | ⟨0, _⟩ => show win0_1.index t0_3 0 * 1 ≤ (j 0).val ∧ (j 0).val < win0_1.index t0_3 0 * 1 + 1; omega
    | ⟨1, _⟩ => show win0_1.index t0_3 1 * 128 ≤ (j 1).val ∧ (j 1).val < win0_1.index t0_3 1 * 128 + 128; omega
    | ⟨2, _⟩ => show win0_1.index t0_3 2 * 128 ≤ (j 2).val ∧ (j 2).val < win0_1.index t0_3 2 * 128 + 128; omega
  · obtain ⟨i0, i1, i2⟩ := idx1_7
    refine ⟨t0_7, (flush0_1 t0_7).mpr rfl, ?_⟩
    rw [mem_blk1]
    intro a
    match a with
    | ⟨0, _⟩ => show win0_1.index t0_7 0 * 1 ≤ (j 0).val ∧ (j 0).val < win0_1.index t0_7 0 * 1 + 1; omega
    | ⟨1, _⟩ => show win0_1.index t0_7 1 * 128 ≤ (j 1).val ∧ (j 1).val < win0_1.index t0_7 1 * 128 + 128; omega
    | ⟨2, _⟩ => show win0_1.index t0_7 2 * 128 ≤ (j 2).val ∧ (j 2).val < win0_1.index t0_7 2 * 128 + 128; omega

/-- So the array ends holding `gramArr`. -/
theorem final1 (c : Dev nD) : (dats m 0 c).arrAt 1 cfg0.N = gramArr m c :=
  (dats m 0 c).arrAt_eq_of_cover 1 (gramArr m c) (flushed1_eq m c) cover1

/-! ### Output 2: the per-core partial squared norms -/

/-- Where the two write-backs land: point 3 writes block 0 along the leading axis, point 7 block 1. -/
theorem idx2_3 : win0_2.index t0_3 0 = 0 ∧ win0_2.index t0_3 1 = 0 ∧ win0_2.index t0_3 2 = 0 := by decide +kernel
theorem idx2_7 : win0_2.index t0_7 0 = 1 ∧ win0_2.index t0_7 1 = 0 ∧ win0_2.index t0_7 2 = 0 := by decide +kernel

/-- What the array holds after the run: core 0's block is the accumulator after point 3, core 1's after point 7,
    each with its leading unit axis. -/
def sqArr (c : Dev nD) : FVec F S2x128x1 .f32 := fun j =>
  if (j 0).val = 0 then k0_pay6 (sqScr m c 3 pt3) (ix3 (0 : Fin 1) (j 1) (j 2))
  else k0_pay6 (sqScr m c 7 pt7) (ix3 (0 : Fin 1) (j 1) (j 2))

/-- An index of the array is in point `t`'s block iff each coordinate is in the block's range on its axis. -/
theorem mem_blk2 (t : Fin cfg0.N) (i : S2x128x1.Idx) :
    i ∈ ((cfg0.win 2).blk t).view.set ↔ ∀ a : Fin 3, win0_2.index t a * S1x128x1.size a ≤ (i a).val ∧ (i a).val < win0_2.index t a * S1x128x1.size a + S1x128x1.size a := by
  show i ∈ ((View.whole main_call0_v0_1).slice (win0_2.rect t)).set ↔ _
  rw [View.set_slice_whole, Rect.mem_set_unit]
  exact Iff.rfl

/-- What a core's last point writes back is its block of `sqArr`. -/
theorem flushed2_eq (c : Dev nD) (t : Fin cfg0.N) (hf : (cfg0.win 2).flush t = true) :
    (dats m 0 c).flushed 2 t = ((cfg0.win 2).blk t).view.read (Elt F) (sqArr m c) := by
  have hN : cfg0.N = 8 := N_0
  have h3 : t.val % 4 = 3 := (flush0_2 t).mp hf
  have ht := t.isLt
  show (cfg0.win 2).cut (grid0.coords t) ((dats m 0 c).after 2 t) = _
  rw [after0_2, sqOut_last m c t.val t.isLt h3]
  rcases (show t.val = 3 ∨ t.val = 7 by omega) with e | e
  · obtain rfl : t = t0_3 := Fin.ext e
    obtain ⟨i0, i1, i2⟩ := idx2_3
    funext y
    have hy0 : (y 0).val < 1 := (y 0).isLt
    have ee : ((cfg0.win 2).blk t0_3).view.emb y = ix3 (0 : Fin 2) (y 1) (y 2) := funext fun a => Fin.ext (by
      match a with
      | ⟨0, _⟩ => show win0_2.index t0_3 0 * 1 + 1 * (y 0).val = 0; omega
      | ⟨1, _⟩ => show win0_2.index t0_3 1 * 128 + 1 * (y 1).val = (y 1).val; omega
      | ⟨2, _⟩ => show win0_2.index t0_3 2 * 1 + 1 * (y 2).val = (y 2).val; omega)
    rw [View.read_apply, ee]
    have ey : y = ix3 (0 : Fin 1) (y 1) (y 2) := funext fun a => Fin.ext (by
      match a with
      | ⟨0, _⟩ => show (y 0).val = 0; omega
      | ⟨1, _⟩ => rfl
      | ⟨2, _⟩ => rfl)
    show k0_pay6 (sqScr m c 3 _) y = sqArr m c (ix3 (0 : Fin 2) (y 1) (y 2))
    unfold sqArr
    refine Eq.trans ?_ (if_pos (show ((ix3 (0 : Fin 2) (y 1) (y 2)) (0 : Fin 3)).val = 0 from rfl)).symm
    exact congrArg _ ey
  · obtain rfl : t = t0_7 := Fin.ext e
    obtain ⟨i0, i1, i2⟩ := idx2_7
    funext y
    have hy0 : (y 0).val < 1 := (y 0).isLt
    have ee : ((cfg0.win 2).blk t0_7).view.emb y = ix3 (1 : Fin 2) (y 1) (y 2) := funext fun a => Fin.ext (by
      match a with
      | ⟨0, _⟩ => show win0_2.index t0_7 0 * 1 + 1 * (y 0).val = 1; omega
      | ⟨1, _⟩ => show win0_2.index t0_7 1 * 128 + 1 * (y 1).val = (y 1).val; omega
      | ⟨2, _⟩ => show win0_2.index t0_7 2 * 1 + 1 * (y 2).val = (y 2).val; omega)
    rw [View.read_apply, ee]
    have ey : y = ix3 (0 : Fin 1) (y 1) (y 2) := funext fun a => Fin.ext (by
      match a with
      | ⟨0, _⟩ => show (y 0).val = 0; omega
      | ⟨1, _⟩ => rfl
      | ⟨2, _⟩ => rfl)
    show k0_pay6 (sqScr m c 7 _) y = sqArr m c (ix3 (1 : Fin 2) (y 1) (y 2))
    unfold sqArr
    refine Eq.trans ?_ (if_neg (show ¬((ix3 (1 : Fin 2) (y 1) (y 2)) (0 : Fin 3)).val = 0 from Nat.one_ne_zero)).symm
    exact congrArg _ ey

/-- The two write-backs cover the array: block 0 is point 3's, block 1 point 7's. -/
theorem cover2 (j : S2x128x1.Idx) :
    ∃ t : Fin cfg0.N, (cfg0.win 2).flush t = true ∧ j ∈ ((cfg0.win 2).blk t).view.set := by
  have h0 : (j 0).val < 2 := (j 0).isLt
  have h1 : (j 1).val < 128 := (j 1).isLt
  have h2 : (j 2).val < 1 := (j 2).isLt
  rcases (show (j 0).val = 0 ∨ (j 0).val = 1 by omega) with e | e
  · obtain ⟨i0, i1, i2⟩ := idx2_3
    refine ⟨t0_3, (flush0_2 t0_3).mpr rfl, ?_⟩
    rw [mem_blk2]
    intro a
    match a with
    | ⟨0, _⟩ => show win0_2.index t0_3 0 * 1 ≤ (j 0).val ∧ (j 0).val < win0_2.index t0_3 0 * 1 + 1; omega
    | ⟨1, _⟩ => show win0_2.index t0_3 1 * 128 ≤ (j 1).val ∧ (j 1).val < win0_2.index t0_3 1 * 128 + 128; omega
    | ⟨2, _⟩ => show win0_2.index t0_3 2 * 1 ≤ (j 2).val ∧ (j 2).val < win0_2.index t0_3 2 * 1 + 1; omega
  · obtain ⟨i0, i1, i2⟩ := idx2_7
    refine ⟨t0_7, (flush0_2 t0_7).mpr rfl, ?_⟩
    rw [mem_blk2]
    intro a
    match a with
    | ⟨0, _⟩ => show win0_2.index t0_7 0 * 1 ≤ (j 0).val ∧ (j 0).val < win0_2.index t0_7 0 * 1 + 1; omega
    | ⟨1, _⟩ => show win0_2.index t0_7 1 * 128 ≤ (j 1).val ∧ (j 1).val < win0_2.index t0_7 1 * 128 + 128; omega
    | ⟨2, _⟩ => show win0_2.index t0_7 2 * 1 ≤ (j 2).val ∧ (j 2).val < win0_2.index t0_7 2 * 1 + 1; omega

/-- So the array ends holding `sqArr`. -/
theorem final2 (c : Dev nD) : (dats m 0 c).arrAt 2 cfg0.N = sqArr m c :=
  (dats m 0 c).arrAt_eq_of_cover 2 (sqArr m c) (flushed2_eq m c) cover2

end Cert.KernelIdeal.KValue

end
-- ==== Proof.BodyIdx.lean ====
import proofs.«419732_j23716809408616_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# One grid step's arithmetic, entry by entry, over the extended reals

With `x` the step's block of 16384 columns: the Gram update stores `acc(p, q) + ∑ₑ x(p, e) · x(q, e)` (the matrix
product `x · xᵀ` into a zero accumulator is that sum, with no rounding over the extended reals), the squared-norm
update stores `acc(p, 0) + ∑ₑ x(p, e) · x(p, e)` (the lane sum of `x ∘ x`, viewed as a column), the two resets
store zeros, and the two copies into the output blocks only add a leading unit axis.
-/

noncomputable section

open Idealize.ShloMosaic Idealize.ShloMosaic.TcCoe Idealize.ShloMosaic.ValueIdx

namespace Cert.KernelIdeal.KValue

open Cert.KernelIdeal Cert.KernelIdeal.Gen

/-- The reset of the Gram accumulator stores zeros. -/
theorem zeroG_apply (j : S128x128.Idx) : k0_pay1 (F := Ideal) j = 0 := by
  unfold k0_pay1
  simp only [shapeCast_self]
  exact Ideal.ofBits_zero_f32

/-- The reset of the squared-norm accumulator stores zeros. -/
theorem zeroS_apply (j : S128x1.Idx) : k0_pay2 (F := Ideal) j = 0 := by
  unfold k0_pay2
  simp only [shapeCast_self]
  exact Ideal.ofBits_zero_f32

/-! ### The product `x · xᵀ`: where its two factors are read -/

theorem lhs_row (i : S128x128.Idx) (k : dot_S128x16384_S128x16384_S128x128_1_1_0_0_n_n.contr.Idx) : (dot_S128x16384_S128x16384_S128x128_1_1_0_0_n_n.lhsIdx i k 0).val = (i 0).val := by
  unfold DotDims.lhsIdx
  rw [dif_neg (show ¬(0 : Fin S128x16384.rank) ∈ dot_S128x16384_S128x16384_S128x128_1_1_0_0_n_n.lhsBatch by decide), dif_pos (show (0 : Fin S128x16384.rank) ∈ dot_S128x16384_S128x16384_S128x128_1_1_0_0_n_n.lhsNonContracting by decide)]
  rfl
theorem lhs_col (i : S128x128.Idx) (k : dot_S128x16384_S128x16384_S128x128_1_1_0_0_n_n.contr.Idx) : (dot_S128x16384_S128x16384_S128x128_1_1_0_0_n_n.lhsIdx i k 1).val = (k ⟨0, by decide⟩).val :=
  dot_S128x16384_S128x16384_S128x128_1_1_0_0_n_n.lhsIdx_val_of_single rfl i k
theorem rhs_row (i : S128x128.Idx) (k : dot_S128x16384_S128x16384_S128x128_1_1_0_0_n_n.contr.Idx) : (dot_S128x16384_S128x16384_S128x128_1_1_0_0_n_n.rhsIdx i k 0).val = (i 1).val := by
  unfold DotDims.rhsIdx
  rw [dif_neg (show ¬(0 : Fin S128x16384.rank) ∈ dot_S128x16384_S128x16384_S128x128_1_1_0_0_n_n.rhsBatch by decide), dif_pos (show (0 : Fin S128x16384.rank) ∈ dot_S128x16384_S128x16384_S128x128_1_1_0_0_n_n.rhsNonContracting by decide)]
  rfl
theorem rhs_col (i : S128x128.Idx) (k : dot_S128x16384_S128x16384_S128x128_1_1_0_0_n_n.contr.Idx) : (dot_S128x16384_S128x16384_S128x128_1_1_0_0_n_n.rhsIdx i k 1).val = (k ⟨0, by decide⟩).val :=
  dot_S128x16384_S128x16384_S128x128_1_1_0_0_n_n.rhsIdx_val_of_single rfl i k

/-- Entry (p, q) of `x · xᵀ` into a zero accumulator: the sum over the block's columns of `x(p, e) · x(q, e)`. -/
theorem xxT_apply (x : FVec Ideal S128x16384 .f32) (p q : Fin 128) :
    matmul dot_S128x16384_S128x16384_S128x128_1_1_0_0_n_n none x x (constant S128x128 .f32 0x00000000#32) (ix2 p q) = ∑ e : Fin 16384, x (ix2 p e) * x (ix2 q e) := by
  simp only [matmul]
  rw [Ideal.matmul_constant_zero_apply, ← Equiv.sum_comp (contrEquiv1 dot_S128x16384_S128x16384_S128x128_1_1_0_0_n_n 16384 rfl rfl).symm]
  refine Finset.sum_congr rfl fun e _ => ?_
  have he := contrEquiv1_symm_val dot_S128x16384_S128x16384_S128x128_1_1_0_0_n_n 16384 rfl rfl e
  have el : dot_S128x16384_S128x16384_S128x128_1_1_0_0_n_n.lhsIdx (ix2 p q) ((contrEquiv1 dot_S128x16384_S128x16384_S128x128_1_1_0_0_n_n 16384 rfl rfl).symm e) = ix2 p e := funext fun a => Fin.ext (by
    match a with
    | ⟨0, _⟩ => exact lhs_row _ _
    | ⟨1, _⟩ => exact (lhs_col _ _).trans he)
  have er : dot_S128x16384_S128x16384_S128x128_1_1_0_0_n_n.rhsIdx (ix2 p q) ((contrEquiv1 dot_S128x16384_S128x16384_S128x128_1_1_0_0_n_n 16384 rfl rfl).symm e) = ix2 q e := funext fun a => Fin.ext (by
    match a with
    | ⟨0, _⟩ => exact rhs_row _ _
    | ⟨1, _⟩ => exact (rhs_col _ _).trans he)
  rw [el, er]

/-- The Gram update at (p, q): the accumulator's entry plus the block's contribution. -/
theorem gramStep_apply (x : Vec Ideal S128x16384 .f32) (acc : Vec Ideal S128x128 .f32) (p q : Fin 128) :
    k0_pay3 x acc (ix2 p q) = acc (ix2 p q) + ∑ e : Fin 16384, x (ix2 p e) * x (ix2 q e) := by
  unfold k0_pay3
  simp only [shapeCast_self]
  exact congrArg (acc (ix2 p q) + ·) (xxT_apply x p q)

/-- The lane sum of `x ∘ x`, viewed as a column, at row p: the sum over the block's columns of `x(p, e)²`. -/
theorem rowsq_apply (x : FVec Ideal S128x16384 .f32) (p : Fin 128) :
    shapeCast S128x1 (multiReduction .add [1] S128 (mulf x x) 0x00000000#32 Gen.reduces_S128x16384_S128 (.inl rfl) rfl) Gen.shapeCasts_S128_S128x1
        (ix2 p (0 : Fin 1))
      = ∑ e : Fin 16384, x (ix2 p e) * x (ix2 p e) := by
  rw [shapeCast_apply _ _ (ix2 p (0 : Fin 1)) (ix1 p) (by
    rw [Shape.rowMajor_val_one, Shape.rowMajor_val_two]
    show p.val = p.val * 1 + 0
    omega)]
  refine (Ideal.multiReduction_add_single (mulf x x) 0x00000000#32 Gen.reduces_S128x16384_S128 (.inl rfl) rfl (ix1 p)).trans ?_
  refine Finset.sum_congr rfl fun e _ => ?_
  have hl : Gen.reduces_S128x16384_S128.lift (ix1 p) e = ix2 p e := funext fun a => Fin.ext (by
    match a with
    | ⟨0, _⟩ => rfl
    | ⟨1, _⟩ => rfl)
  show mulf x x (Gen.reduces_S128x16384_S128.lift (ix1 p) e) = _
  rw [hl]
  rfl

/-- The squared-norm update at row p: the accumulator's entry plus the block's contribution. -/
theorem sqStep_apply (x : Vec Ideal S128x16384 .f32) (acc : Vec Ideal S128x1 .f32) (p : Fin 128) :
    k0_pay4 x acc (ix2 p (0 : Fin 1)) = acc (ix2 p (0 : Fin 1)) + ∑ e : Fin 16384, x (ix2 p e) * x (ix2 p e) := by
  unfold k0_pay4
  simp only [shapeCast_self]
  exact congrArg (acc (ix2 p (0 : Fin 1)) + ·) (rowsq_apply x p)

/-- The copy into the Gram output's block only adds a leading unit axis. -/
theorem gramCopy_apply (v : Vec Ideal S128x128 .f32) (u : Fin 1) (p q : Fin 128) :
    k0_pay5 v (ix3 u p q) = v (ix2 p q) := by
  unfold k0_pay5
  exact shapeCast_ab_1ab_apply v _ u p q

/-- The copy into the squared-norm output's block likewise. -/
theorem sqCopy_apply (v : Vec Ideal S128x1 .f32) (u : Fin 1) (p : Fin 128) (z : Fin 1) :
    k0_pay6 v (ix3 u p z) = v (ix2 p z) := by
  unfold k0_pay6
  exact shapeCast_ab_1ab_apply v _ u p z

end Cert.KernelIdeal.KValue

end
-- ==== Proof.AccSum.lean ====
import proofs.«419732_j23716809408616_3_alg».proof.Proof.Arrays
import proofs.«419732_j23716809408616_3_alg».proof.Proof.BodyIdx

/-!
# The region's two arrays as sums over the input's columns

Over the extended reals, with `x` the input f32[128, 131072]: the step at grid point `n` reads columns
`n · 16384 … n · 16384 + 16383`, so it adds `∑ₑ x(p, n·16384 + e) · x(q, n·16384 + e)` to entry (p, q) of the Gram
accumulator and `∑ₑ x(p, n·16384 + e)²` to row p of the squared-norm accumulator. A core's accumulators start at
zero, so after its fourth step they hold zero plus its four blocks' contributions, and that is what its block of
each output array holds. `xAt` extends the input by zero to all pairs of naturals, so that a block offset is
written without a bound proof; past the array it is never read.
-/

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

/-- Entry (r, d) of a 128 × 131072 array, zero outside it. -/
def xAt (X : S128x131072.Idx → EReal) (r d : ℕ) : EReal :=
  if h : r < 128 ∧ d < 131072 then X (ix2 ⟨r, h.1⟩ ⟨d, h.2⟩) else 0

theorem xAt_ix2 (X : S128x131072.Idx → EReal) (p : Fin 128) (k : Fin 131072) : xAt X p.val k.val = X (ix2 p k) := by
  unfold xAt
  rw [dif_pos ⟨p.isLt, k.isLt⟩]

variable (m : (ℓ : Loc nD τ sig) → Buf (Elt Ideal) ℓ)

/-- The input array as the program is launched with it. -/
abbrev xin (c : Dev nD) : S128x131072.Idx → EReal := m ((c : Thread nD τ).loc main_arg0)

/-- The input window's block at point `t` starts at row 0 and at column block `t`. -/
theorem idx0 : ∀ t : Fin cfg0.N, win0_0.index t 0 = 0 ∧ win0_0.index t 1 = t.val :=
  (by decide +kernel : ∀ t : Fin grid0.N, win0_0.index t 0 = 0 ∧ win0_0.index t 1 = t.val)

/-- The block the step at point `n` loads, entry (p, e): the input at (p, n · 16384 + e). -/
theorem xblk_apply (c : Dev nD) (n : ℕ) (h : n < cfg0.N) (p : Fin 128) (e : Fin 16384) :
    xblk m c n h (ix2 p e) = xAt (xin m c) p.val (n * 16384 + e.val) := by
  have hN : cfg0.N = 8 := N_0
  have i0 : win0_0.index ⟨n, h⟩ 0 = 0 := (idx0 ⟨n, h⟩).1
  have i1 : win0_0.index ⟨n, h⟩ 1 = n := (idx0 ⟨n, h⟩).2
  have hb : p.val < 128 ∧ n * 16384 + e.val < 131072 := ⟨p.isLt, by have := e.isLt; omega⟩
  unfold xAt
  rw [dif_pos hb]
  show iblk m c 0 ⟨n, h⟩ (ix2 p e) = _
  unfold iblk
  rw [View.read_apply]
  show V m c main_arg0 _ = _
  rw [V_main_arg0]
  refine congrArg (m ((c : Thread nD τ).loc main_arg0)) (funext fun a => Fin.ext ?_)
  match a with
  | ⟨0, _⟩ => show win0_0.index ⟨n, h⟩ 0 * 128 + 1 * p.val = p.val; omega
  | ⟨1, _⟩ => show win0_0.index ⟨n, h⟩ 1 * 16384 + 1 * e.val = n * 16384 + e.val; rw [i1]; omega

/-- Block `n`'s contribution to entry `i` of the Gram matrix. -/
def gramPart (c : Dev nD) (n : ℕ) (i : S128x128.Idx) : EReal :=
  ∑ e : Fin 16384, xAt (xin m c) (i 0).val (n * 16384 + e.val) * xAt (xin m c) (i 1).val (n * 16384 + e.val)

/-- Block `n`'s contribution to entry `i` (a row, column 0) of the squared norms. -/
def sqPart (c : Dev nD) (n : ℕ) (i : S128x1.Idx) : EReal :=
  ∑ e : Fin 16384, xAt (xin m c) (i 0).val (n * 16384 + e.val) * xAt (xin m c) (i 0).val (n * 16384 + e.val)

/-- A Gram update adds the block's contribution, at every entry. -/
theorem gram_step_eq (c : Dev nD) (n : ℕ) (h : n < cfg0.N) (acc : Vec Ideal S128x128 .f32) (i : S128x128.Idx) :
    k0_pay3 (xblk m c n h) acc i = acc i + gramPart m c n i := by
  obtain ⟨p, q, rfl⟩ : ∃ (p : Fin 128) (q : Fin 128), i = ix2 p q := ⟨i 0, i 1, eq_ix2 i⟩
  rw [gramStep_apply]
  refine congrArg (acc (ix2 p q) + ·) (Finset.sum_congr rfl fun e _ => ?_)
  rw [xblk_apply, xblk_apply]

/-- A squared-norm update adds the block's contribution, at every entry. -/
theorem sq_step_eq (c : Dev nD) (n : ℕ) (h : n < cfg0.N) (acc : Vec Ideal S128x1 .f32) (i : S128x1.Idx) :
    k0_pay4 (xblk m c n h) acc i = acc i + sqPart m c n i := by
  obtain ⟨p, z, rfl⟩ : ∃ (p : Fin 128) (z : Fin 1), i = ix2 p z := ⟨i 0, i 1, eq_ix2 i⟩
  obtain rfl : z = 0 := Subsingleton.elim _ _
  rw [sqStep_apply]
  refine congrArg (acc (ix2 p (0 : Fin 1)) + ·) (Finset.sum_congr rfl fun e _ => ?_)
  rw [xblk_apply]

/-- After a core's four steps from point `b` (0 or 4) the Gram accumulator is zero plus the four blocks' contributions. -/
theorem gram_fold_apply (c : Dev nD) (b : ℕ) (h : b + 3 < cfg0.N) (i : S128x128.Idx) :
    Pipeline.accAt (fun n h => k0_pay3 (xblk m c n h) (k0_pay1 (F := Ideal))) (fun n h acc => k0_pay3 (xblk m c n h) acc) b 3 h i
      = 0 + ∑ s ∈ Finset.range 4, gramPart m c (b + s) i :=
  Pipeline.accAt_add_apply _ _ (fun _ => (0 : EReal)) (gramPart m c) b 3
    (fun hb i => by rw [gram_step_eq, zeroG_apply])
    (fun n hn acc i _ _ => gram_step_eq m c n hn acc i) 3 le_rfl h i

/-- And the squared-norm accumulator likewise. -/
theorem sq_fold_apply (c : Dev nD) (b : ℕ) (h : b + 3 < cfg0.N) (i : S128x1.Idx) :
    Pipeline.accAt (fun n h => k0_pay4 (xblk m c n h) (k0_pay2 (F := Ideal))) (fun n h acc => k0_pay4 (xblk m c n h) acc) b 3 h i
      = 0 + ∑ s ∈ Finset.range 4, sqPart m c (b + s) i :=
  Pipeline.accAt_add_apply _ _ (fun _ => (0 : EReal)) (sqPart m c) b 3
    (fun hb i => by rw [sq_step_eq, zeroS_apply])
    (fun n hn acc i _ _ => sq_step_eq m c n hn acc i) 3 le_rfl h i

/-- Core 0's block of the Gram array, entry (p, q). -/
theorem gramArr0_apply (c : Dev nD) (p q : Fin 128) :
    gramArr m c (ix3 (0 : Fin 2) p q) = 0 + ∑ s ∈ Finset.range 4, gramPart m c (0 + s) (ix2 p q) := by
  unfold gramArr
  refine (if_pos (show ((ix3 (0 : Fin 2) p q) (0 : Fin 3)).val = 0 from rfl)).trans ?_
  show k0_pay5 (gramScr m c 3 pt3) (ix3 (0 : Fin 1) p q) = _
  rw [gramCopy_apply]
  refine (congrFun (gramScr_fold m c 3 pt3 (by rw [show cfg0.N = 8 from N_0]; decide)) (ix2 p q)).trans ?_
  exact gram_fold_apply m c 0 _ (ix2 p q)

/-- Core 1's block of the Gram array, entry (p, q). -/
theorem gramArr1_apply (c : Dev nD) (p q : Fin 128) :
    gramArr m c (ix3 (1 : Fin 2) p q) = 0 + ∑ s ∈ Finset.range 4, gramPart m c (4 + s) (ix2 p q) := by
  unfold gramArr
  refine (if_neg (show ¬((ix3 (1 : Fin 2) p q) (0 : Fin 3)).val = 0 from Nat.one_ne_zero)).trans ?_
  show k0_pay5 (gramScr m c 7 pt7) (ix3 (0 : Fin 1) p q) = _
  rw [gramCopy_apply]
  refine (congrFun (gramScr_fold m c 7 pt7 (by rw [show cfg0.N = 8 from N_0]; decide)) (ix2 p q)).trans ?_
  exact gram_fold_apply m c 4 _ (ix2 p q)

/-- Core 0's block of the squared-norm array, row p. -/
theorem sqArr0_apply (c : Dev nD) (p : Fin 128) :
    sqArr m c (ix3 (0 : Fin 2) p (0 : Fin 1)) = 0 + ∑ s ∈ Finset.range 4, sqPart m c (0 + s) (ix2 p (0 : Fin 1)) := by
  unfold sqArr
  refine (if_pos (show ((ix3 (0 : Fin 2) p (0 : Fin 1)) (0 : Fin 3)).val = 0 from rfl)).trans ?_
  show k0_pay6 (sqScr m c 3 pt3) (ix3 (0 : Fin 1) p (0 : Fin 1)) = _
  rw [sqCopy_apply]
  refine (congrFun (sqScr_fold m c 3 pt3 (by rw [show cfg0.N = 8 from N_0]; decide)) (ix2 p (0 : Fin 1))).trans ?_
  exact sq_fold_apply m c 0 _ (ix2 p (0 : Fin 1))

/-- Core 1's block of the squared-norm array, row p. -/
theorem sqArr1_apply (c : Dev nD) (p : Fin 128) :
    sqArr m c (ix3 (1 : Fin 2) p (0 : Fin 1)) = 0 + ∑ s ∈ Finset.range 4, sqPart m c (4 + s) (ix2 p (0 : Fin 1)) := by
  unfold sqArr
  refine (if_neg (show ¬((ix3 (1 : Fin 2) p (0 : Fin 1)) (0 : Fin 3)).val = 0 from Nat.one_ne_zero)).trans ?_
  show k0_pay6 (sqScr m c 7 pt7) (ix3 (0 : Fin 1) p (0 : Fin 1)) = _
  rw [sqCopy_apply]
  refine (congrFun (sqScr_fold m c 7 pt7 (by rw [show cfg0.N = 8 from N_0]; decide)) (ix2 p (0 : Fin 1))).trans ?_
  exact sq_fold_apply m c 4 _ (ix2 p (0 : Fin 1))

end Cert.KernelIdeal.KValue

end
-- ==== Proof.Tail.lean ====
import Idealize.ShloMosaic.PureOps

/-!
# The loss computed from the two 128 × 128 matrices

Both programs end the same way. From `A` (entry (i, j) is the squared norm of row i plus that of row j) and
`G` (the Gram matrix of the rows) they form the distance `d(i, j) = sqrt (max (1e-12) (A(i, j) - 2 · G(i, j)))`;
from the labels `t` the two masks "same label, opposite half" and "other label, opposite half" (the halves
are rows 0–63 and 64–127); then per row the largest distance under the first mask and the smallest under the
second, the hinge `max (hardest positive - hardest negative + 0.3) 0`, and the mean over the 128 rows.
`tail` names that chain once, as a function of `A`, `G` and `t`, so that it is compared with itself and
never opened: the two programs are equal as soon as their `A` and `G` are.
-/

noncomputable section

namespace Cert.Triplet

open Idealize.ShloMosaic

abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩

/-- The shape relations the chain's broadcasts and reductions take. -/
structure Rel : Prop where
  b_col : S128.BroadcastsInDim S128x1 (![0] : Fin 1 → Fin S128x1.rank)
  b_row : S128.BroadcastsInDim S1x128 (![1] : Fin 1 → Fin S1x128.rank)
  b_col_sq : S128x1.BroadcastsInDim S128x128 (![0, 1] : Fin 2 → Fin S128x128.rank)
  b_row_sq : S1x128.BroadcastsInDim S128x128 (![0, 1] : Fin 2 → Fin S128x128.rank)
  b_sq : S_.BroadcastsInDim S128x128 (![] : Fin 0 → Fin S128x128.rank)
  b_vec : S_.BroadcastsInDim S128 (![] : Fin 0 → Fin S128.rank)
  r_rows : S128x128.ReducesTo [1] S128
  pos : 0 < S_.numel
  r_all : S128.ReducesTo [0] S_

variable {F : FTy → Type} [FloatOps F]

/-- The distance matrix: `sqrt (max 1e-12 (A - 2 · G))`, entry by entry. -/
def dist (h : Rel) (A G : FVec F S128x128 .f32) : FVec F S128x128 .f32 :=
  Host.sqrt (maximumf (broadcastInDim S128x128 ![] h.b_sq (id (constant S_ .f32 0x2B8CBCCC#32)))
    (subf A (mulf (broadcastInDim S128x128 ![] h.b_sq (constant S_ .f32 0x40000000#32)) G)))

/-- Entry (i, j) is set when rows i and j carry the same label. -/
def sameLabel (h : Rel) (t : IVec S128 32) : IVec S128x128 1 :=
  cmpi .eq (broadcastInDim S128x128 ![0, 1] h.b_col_sq (broadcastInDim S128x1 ![0] h.b_col t))
    (broadcastInDim S128x128 ![0, 1] h.b_row_sq (broadcastInDim S1x128 ![1] h.b_row t))

/-- Row r is in the second half when r ≥ 64. -/
def secondHalf (h : Rel) : IVec S128 1 :=
  cmpi .sge (iotaInDim S128 32 0) (broadcastInDim S128 ![] h.b_vec (constantI S_ 32 64#32))

/-- Entry (i, j) is set when rows i and j lie in opposite halves. -/
def oppositeHalf (h : Rel) : IVec S128x128 1 :=
  cmpi .ne (broadcastInDim S128x128 ![0, 1] h.b_col_sq (broadcastInDim S128x1 ![0] h.b_col (secondHalf h)))
    (broadcastInDim S128x128 ![0, 1] h.b_row_sq (broadcastInDim S1x128 ![1] h.b_row (secondHalf h)))

/-- Per row: the largest distance to a row of the same label in the other half (−∞ when there is none). -/
def hardestPositive (h : Rel) (A G : FVec F S128x128 .f32) (t : IVec S128 32) : FVec F S128 .f32 :=
  Host.reduce FloatOps.maximumf
    (select (andi (sameLabel h t) (oppositeHalf h)) (dist h A G)
      (broadcastInDim S128x128 ![] h.b_sq (constant S_ .f32 0xFF800000#32)))
    (constant S_ .f32 0xFF800000#32) h.r_rows h.pos

/-- Per row: the smallest distance to a row of another label in the other half (+∞ when there is none). -/
def hardestNegative (h : Rel) (A G : FVec F S128x128 .f32) (t : IVec S128 32) : FVec F S128 .f32 :=
  Host.reduce FloatOps.minimumf
    (select (andi (noti (sameLabel h t)) (oppositeHalf h)) (dist h A G)
      (broadcastInDim S128x128 ![] h.b_sq (constant S_ .f32 0x7F800000#32)))
    (constant S_ .f32 0x7F800000#32) h.r_rows h.pos

/-- The loss: the mean over the rows of `max (hardest positive − hardest negative + 0.3) 0`. -/
def tail (h : Rel) (A G : FVec F S128x128 .f32) (t : IVec S128 32) : FVec F S_ .f32 :=
  Host.divf
    (Host.reduceAdd
      (maximumf
        (addf (subf (hardestPositive h A G t) (hardestNegative h A G t))
          (broadcastInDim S128 ![] h.b_vec (constant S_ .f32 0x3E99999A#32)))
        (broadcastInDim S128 ![] h.b_vec (constant S_ .f32 0x00000000#32)))
      (constant S_ .f32 0x00000000#32) h.r_all h.pos)
    (constant S_ .f32 0x43000000#32)

end Cert.Triplet

end
-- ==== Proof.KTail.lean ====
import proofs.«419732_j23716809408616_3_alg».proof.Proof.Gen.KernelIdeal.Frame
import proofs.«419732_j23716809408616_3_alg».proof.Proof.Tail
import Idealize.ShloMosaic.Lib.Pipeline.Value
import Idealize.ShloMosaic.Lib.StableHlo.Run
import Idealize.ShloMosaic.Lib.Tactic

/-!
# The kernel's host operations after the region

The region leaves two arrays: the per-core partial Gram matrices, f32[2, 128, 128], and the per-core partial
squared norms, f32[2, 128, 1]. The host adds the two cores' parts (`gramOf`, `sqOf`), spreads the squared norms
down the rows and across the columns and adds them (`sqsumOf`: entry (i, j) is `sq i + sq j`), and from there
on runs the chain `Cert.Triplet.tail`.
-/

noncomputable section

open Idealize.ShloMosaic Idealize.ShloMosaic.TcCoe Idealize.SL.Sem Idealize.ShloMosaic.StableHlo
open Idealize.ShloMosaic.Pipeline (Dat)

namespace Cert.KernelIdeal.KValue

open Cert.KernelIdeal Cert.KernelIdeal.Gen

variable {F : FTy → Type} [FloatOps F]

/-- The chain's shape relations, as the kernel program's own side conditions prove them. -/
theorem rel : Cert.Triplet.Rel :=
  ⟨Gen.bcast_S128_S128x1_0, Gen.bcast_S128_S1x128_1, Gen.bcast_S128x1_S128x128_0_1, Gen.bcast_S1x128_S128x128_0_1,
    Gen.bcast_S_S128x128, Gen.bcast_S_S128, Gen.reducesTo_S128x128_S128_d1, Gen.h_S_, Gen.reducesTo_S128_S_d0⟩

/-- The Gram matrix: core 0's partial plus core 1's. -/
def gramOf (g : FVec F S2x128x128 .f32) : FVec F S128x128 .f32 :=
  addf (shapeCast S128x128 (extractStridedSlice S1x128x128 ![0, 0, 0] g Gen.slices_S2x128x128_S1x128x128_0_0_0) Gen.shapeCasts_S1x128x128_S128x128)
    (shapeCast S128x128 (extractStridedSlice S1x128x128 ![1, 0, 0] g Gen.slices_S2x128x128_S1x128x128_1_0_0) Gen.shapeCasts_S1x128x128_S128x128)

/-- The squared norms of the rows: core 0's partial plus core 1's, as a vector of 128. -/
def sqOf (s : FVec F S2x128x1 .f32) : FVec F S128 .f32 :=
  shapeCast S128
    (addf (shapeCast S128x1 (extractStridedSlice S1x128x1 ![0, 0, 0] s Gen.slices_S2x128x1_S1x128x1_0_0_0) Gen.shapeCasts_S1x128x1_S128x1)
      (shapeCast S128x1 (extractStridedSlice S1x128x1 ![1, 0, 0] s Gen.slices_S2x128x1_S1x128x1_1_0_0) Gen.shapeCasts_S1x128x1_S128x1))
    Gen.shapeCasts_S128x1_S128

/-- Entry (i, j): the squared norm of row i plus that of row j. -/
def sqsumOf (s : FVec F S2x128x1 .f32) : FVec F S128x128 .f32 :=
  addf (broadcastInDim S128x128 ![0, 1] Gen.bcast_S128x1_S128x128_0_1 (broadcastInDim S128x1 ![0] Gen.bcast_S128_S128x1_0 (sqOf s)))
    (broadcastInDim S128x128 ![0, 1] Gen.bcast_S1x128_S128x128_0_1 (broadcastInDim S1x128 ![1] Gen.bcast_S128_S1x128_1 (sqOf s)))

set_option maxRecDepth 131072 in
set_option maxHeartbeats 2000000 in
/-- From any buffer contents `W`, the operations after the region leave the result at the chain of `sqsumOf` of the
    squared-norm array, `gramOf` of the Gram array and the labels. -/
theorem after_eq_tail (W : Valuation τ sig (Elt F)) :
    StableHlo.after hostOps1 W (Proc.devRef .tc main_v0)
      = Cert.Triplet.tail rel (sqsumOf (W (Proc.devRef .tc main_call0_v0_1))) (gramOf (W (Proc.devRef .tc main_call0_v0_0)))
          (W (Proc.devRef .tc main_arg1)) := by
  after_results_simp
  rfl

variable (m : (ℓ : Loc nD τ sig) → Buf (Elt F) ℓ)

/-- The result buffer after the whole program, in terms of the two arrays the region leaves. -/
theorem kres_eq_tail (c : Dev nD) :
    Pipeline.afterTail₀ cfgs (dats m) 0 (V0 m) [hostOps1] c main_v0
      = Cert.Triplet.tail rel (sqsumOf ((dats m 0 c).arrAt 2 cfg0.N)) (gramOf ((dats m 0 c).arrAt 1 cfg0.N))
          (m ((c : Thread nD τ).loc main_arg1)) := by
  unfold Pipeline.afterTail₀
  show StableHlo.after hostOps1 _ (Proc.devRef .tc main_v0) = _
  rw [after_eq_tail]
  have e1 : Pipeline.withArrays (cfgs 0).spec c (V0 m c) (fun w => (dats m 0 c).arrAt w (cfgs 0).N) (Proc.devRef .tc main_call0_v0_0)
      = (dats m 0 c).arrAt 1 cfg0.N := Pipeline.withArrays_arr spec0 launch0.win.arr_inj c _ _ 1
  have e2 : Pipeline.withArrays (cfgs 0).spec c (V0 m c) (fun w => (dats m 0 c).arrAt w (cfgs 0).N) (Proc.devRef .tc main_call0_v0_1)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  rw [e1, e2, e3]

end Cert.KernelIdeal.KValue

end
-- ==== Proof.HostIdx.lean ====
import proofs.«419732_j23716809408616_3_alg».proof.Proof.KTail
import Idealize.ShloMosaic.Lib.ValueIdx
import Idealize.ShloMosaic.Lib.ValueLayout
import Idealize.ShloMosaic.Lib.Pipeline.Value

/-!
# The kernel's host-side matrices, entry by entry

The host adds the two cores' partial results. Entry (p, q) of the Gram matrix is core 0's entry plus core 1's;
row p's squared norm is core 0's partial plus core 1's (each read at column 0 of a 128 × 1 block); and entry (p, q)
of the matrix of squared norms is row p's squared norm plus row q's.
-/

noncomputable section

namespace Cert.KernelIdeal.KValue

open Cert.KernelIdeal Idealize.ShloMosaic Idealize.ShloMosaic.ValueIdx

/-- Core `c`'s block of a two-core array `[2, a, b]`, cut out as `[1, a, b]` from offset `o = c` on the leading axis,
    reads at `(0, i, j)` the array at `(c, i, j)`. -/
theorem coreBlock_apply {α : Type} {a b : Nat} (o : Nat) (X : (⟨3, ![2, a, b]⟩ : Shape).Idx → α)
    (h : (⟨3, ![2, a, b]⟩ : Shape).Slices ![o, 0, 0] ⟨3, ![1, a, b]⟩) (c : Fin 2) (hc : c.val = o) (i : Fin a) (j : Fin b) :
    extractStridedSlice ⟨3, ![1, a, b]⟩ ![o, 0, 0] X h (ix3 (0 : Fin 1) i j) = X (ix3 c i j) :=
  extractStridedSlice_apply _ X h _ _ fun ax => by
    match ax with
    | ⟨0, _⟩ => exact hc
    | ⟨1, _⟩ => exact (Nat.zero_add _).symm
    | ⟨2, _⟩ => exact (Nat.zero_add _).symm

/-- A column `[a, 1]` viewed as the vector `[a]` reads at `i` the column at `(i, 0)`. -/
theorem column_apply {α : Type} {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Entry (p, q) of the Gram matrix: the two cores' partial entries added. -/
theorem gramOf_apply (g : FVec Ideal S2x128x128 .f32) (p q : Fin 128) :
    gramOf g (ix2 p q) = g (ix3 (0 : Fin 2) p q) + g (ix3 (1 : Fin 2) p q) := by
  unfold gramOf
  rw [addf_apply, shapeCast_1ab_ab_apply, shapeCast_1ab_ab_apply,
    coreBlock_apply 0 g _ 0 rfl, coreBlock_apply 1 g _ 1 rfl]

/-- Row p's squared norm: the two cores' partial sums added. -/
theorem sqOf_apply (s : FVec Ideal S2x128x1 .f32) (p : Fin 128) :
    sqOf s (ix1 p) = s (ix3 (0 : Fin 2) p (0 : Fin 1)) + s (ix3 (1 : Fin 2) p (0 : Fin 1)) := by
  unfold sqOf
  rw [column_apply, addf_apply, shapeCast_1ab_ab_apply, shapeCast_1ab_ab_apply,
    coreBlock_apply 0 s _ 0 rfl, coreBlock_apply 1 s _ 1 rfl]

/-- The squared norms stood up as a 128 × 1 column and repeated in every column: entry (p, q) is entry p of the vector. -/
theorem normsByRow_apply {α : Type} (v : S128.Idx → α) (p q : Fin 128) :
    broadcastInDim S128x128 ![0, 1] Gen.bcast_S128x1_S128x128_0_1 (broadcastInDim S128x1 ![0] Gen.bcast_S128_S128x1_0 v) (ix2 p q)
      = v (ix1 p) := by
  refine (broadcastInDim_apply _ Gen.bcast_S128x1_S128x128_0_1 _ (ix2 p q) (ix2 p (0 : Fin 1)) fun a => ?_).trans
    (broadcastInDim_apply _ Gen.bcast_S128_S128x1_0 v _ (ix1 p) fun a => ?_)
  · match a with
    | ⟨0, _⟩ => show p.val = if (128 : Nat) = 1 then 0 else p.val; rw [if_neg (by decide)]
    | ⟨1, _⟩ => show 0 = if (1 : Nat) = 1 then 0 else q.val; rw [if_pos rfl]
  · match a with
    | ⟨0, _⟩ => show p.val = if (128 : Nat) = 1 then 0 else p.val; rw [if_neg (by decide)]

/-- The squared norms laid out as a 1 × 128 row and repeated in every row: entry (p, q) is entry q of the vector. -/
theorem normsByColumn_apply {α : Type} (v : S128.Idx → α) (p q : Fin 128) :
    broadcastInDim S128x128 ![0, 1] Gen.bcast_S1x128_S128x128_0_1 (broadcastInDim S1x128 ![1] Gen.bcast_S128_S1x128_1 v) (ix2 p q)
      = v (ix1 q) := by
  refine (broadcastInDim_apply _ Gen.bcast_S1x128_S128x128_0_1 _ (ix2 p q) (ix2 (0 : Fin 1) q) fun a => ?_).trans
    (broadcastInDim_apply _ Gen.bcast_S128_S1x128_1 v _ (ix1 q) fun a => ?_)
  · match a with
    | ⟨0, _⟩ => show 0 = if (1 : Nat) = 1 then 0 else p.val; rw [if_pos rfl]
    | ⟨1, _⟩ => show q.val = if (128 : Nat) = 1 then 0 else q.val; rw [if_neg (by decide)]
  · match a with
    | ⟨0, _⟩ => show q.val = if (128 : Nat) = 1 then 0 else q.val; rw [if_neg (by decide)]

/-- Entry (p, q) of the matrix of squared norms: row p's plus row q's. -/
theorem sqsumOf_apply (s : FVec Ideal S2x128x1 .f32) (p q : Fin 128) :
    sqsumOf s (ix2 p q) = sqOf s (ix1 p) + sqOf s (ix1 q) := by
  unfold sqsumOf
  rw [addf_apply, normsByRow_apply, normsByColumn_apply]

end Cert.KernelIdeal.KValue

end
-- ==== Proof.RefIdx.lean ====
import proofs.«419732_j23716809408616_3_alg».proof.Proof.Gen.ReferenceIdeal.Read
import Idealize.ShloMosaic.Lib.ValueIdx
import Idealize.ShloMosaic.Lib.Pipeline.Value
import Idealize.ShloMosaic.PureOps.Ideal.Laws

/-!
# The reference's two matrices, entry by entry

Over the extended reals the reference's Gram matrix `x · xᵀ` has entry (p, q) equal to the sum over the 131072
columns `k` of `x(p, k) · x(q, k)`, and its matrix of squared norms has entry (p, q) equal to
`(0 + ∑ₖ x(p, k)²) + (0 + ∑ₖ x(q, k)²)`: a row's squared norm is the host's sum from the initial value zero, spread
down the rows for the first term and, transposed, across the columns for the second.
-/

noncomputable section

namespace Cert.ReferenceIdeal.RefValue

open Cert.ReferenceIdeal Idealize.ShloMosaic Idealize.ShloMosaic.ValueIdx

/-- Entry (p, q) of the reference's Gram matrix. -/
theorem gram_apply (x0 : (⟨S128x131072, .f32⟩ : BufTy).Contents (Elt Ideal)) (p q : Fin 128) :
    Read.val_main_v8 (F := Ideal) x0 (ix2 p q) = ∑ k : Fin 131072, x0 (ix2 p k) * x0 (ix2 q k) := by
  rw [Read.val_main_v8_apply]
  refine Finset.sum_congr rfl fun k _ => ?_
  rw [Read.val_main_v7_apply]
  have el : Read.lidx_main_v8 (ix2 p q) k = ix2 p k :=
    funext fun a => Fin.ext (by match a with | ⟨0, _⟩ => rfl | ⟨1, _⟩ => rfl)
  have er : Read.idx_main_v7 (Read.ridx_main_v8 (ix2 p q) k) = ix2 q k :=
    funext fun a => Fin.ext (by match a with | ⟨0, _⟩ => rfl | ⟨1, _⟩ => rfl)
  rw [el, er]

/-- Entry (p, q) of the reference's matrix of squared norms. -/
theorem sqsum_apply (x0 : (⟨S128x131072, .f32⟩ : BufTy).Contents (Elt Ideal)) (p q : Fin 128) :
    Read.val_main_v6 (F := Ideal) x0 (ix2 p q)
      = (0 + ∑ k : Fin 131072, x0 (ix2 p k) * x0 (ix2 p k)) + (0 + ∑ k : Fin 131072, x0 (ix2 q k) * x0 (ix2 q k)) := by
  simp only [Read.val_main_v6_apply, Read.val_main_v4_apply, Read.val_main_v5_apply, Read.val_main_v3_apply,
    Read.val_main_v2_apply, Read.val_main_v1_apply, Read.val_main_v0_apply, Read.val_main_cst_apply,
    Ideal.addf_def, Ideal.mulf_def, Ideal.ofBits_def, Ideal.ofBits_zero_f32]
  have ep : ∀ k : Fin 131072,
      Read.idx_main_v1 (Read.idx_main_v2 (Read.idx_main_v4 (ix2 p q))) k = ix2 p k := fun k =>
    funext fun a => Fin.ext (by match a with | ⟨0, _⟩ => rfl | ⟨1, _⟩ => rfl)
  have eq : ∀ k : Fin 131072,
      Read.idx_main_v1 (Read.idx_main_v2 (Read.idx_main_v3 (Read.idx_main_v5 (ix2 p q)))) k = ix2 q k := fun k =>
    funext fun a => Fin.ext (by match a with | ⟨0, _⟩ => rfl | ⟨1, _⟩ => rfl)
  simp only [ep, eq]

end Cert.ReferenceIdeal.RefValue

end
-- ==== Proof.RefTail.lean ====
import proofs.«419732_j23716809408616_3_alg».proof.Proof.Gen.ReferenceIdeal.Read
import proofs.«419732_j23716809408616_3_alg».proof.Proof.Tail

/-!
# The reference ends in the shared chain

The reference forms `A(i, j) = ‖xᵢ‖² + ‖xⱼ‖²` (its value `%6`) and the Gram matrix `G = x · xᵀ` (its value
`%8`), and everything after them is the chain `Cert.Triplet.tail` of `A`, `G` and the labels.
-/

noncomputable section

namespace Cert.ReferenceIdeal.RefValue

open Cert.ReferenceIdeal Idealize.ShloMosaic

variable {F : FTy → Type} [FloatOps F]

/-- The chain's shape relations, as the reference's own side conditions prove them. -/
theorem rel : Cert.Triplet.Rel :=
  ⟨Gen.bcast_S128_S128x1_0, Gen.bcast_S128_S1x128_1, Gen.bcast_S128x1_S128x128_0_1, Gen.bcast_S1x128_S128x128_0_1,
    Gen.bcast_S_S128x128, Gen.bcast_S_S128, Gen.reducesTo_S128x128_S128_d1, Gen.h_S_, Gen.reducesTo_S128_S_d0⟩

/-- The reference's result is the chain applied to its `A` and its `G`: every operation after those two is one
    of the chain's, in the chain's order. -/
theorem out_eq_tail (x0 : (⟨S128x131072, .f32⟩ : BufTy).Contents (Elt F)) (x1 : (⟨S128, .i32⟩ : BufTy).Contents (Elt F)) :
    Read.val_main_v39 (F := F) x0 x1
      = Cert.Triplet.tail rel (Read.val_main_v6 (F := F) x0) (Read.val_main_v8 (F := F) x0) x1 := rfl

end Cert.ReferenceIdeal.RefValue

end
-- ==== Proof.Sums.lean ====
import Mathlib.Algebra.BigOperators.Fin
import Mathlib.Algebra.BigOperators.Intervals

/-!
# A long sum cut into equal blocks

The kernel reads the 131072 columns of its input in eight blocks of 16384 columns, four to each of two
cores; each core adds its four blocks' partial sums onto a zero, and the two cores' totals are added at
the end. The reference sums the 131072 columns at once. In a commutative monoid the two are equal: only
commutativity and associativity of addition are used, so the law holds on the extended reals whatever the
entries are, infinite ones included.
-/

namespace Cert.GramSums

open Finset

variable {M : Type*} [AddCommMonoid M]

/-- A sum over the first `N * K` naturals is the sum over `N` consecutive blocks of `K`. -/
theorem sum_range_blocks (g : ℕ → M) (K : ℕ) : ∀ N : ℕ,
    ∑ d ∈ range (N * K), g d = ∑ n ∈ range N, ∑ e ∈ range K, g (n * K + e)
  | 0 => by simp
  | N + 1 => by
    rw [Nat.succ_mul, sum_range_add, sum_range_succ, sum_range_blocks g K N]

/-- The same over `Fin`: the index set the two programs' sums are printed over. -/
theorem sum_fin_blocks (g : ℕ → M) (N K : ℕ) :
    ∑ d : Fin (N * K), g d.val = ∑ n ∈ range N, ∑ e : Fin K, g (n * K + e.val) := by
  rw [Fin.sum_univ_eq_sum_range (fun d => g d) (N * K), sum_range_blocks g K N]
  exact sum_congr rfl fun n _ => (Fin.sum_univ_eq_sum_range (fun e => g (n * K + e)) K).symm

/-- Two cores, four blocks of 16384 columns each, every core's partial sums added onto a zero and the two
    totals added: the sum over all 131072 columns. `B n` is block `n`'s partial sum. -/
theorem two_cores_of_four (B : ℕ → M) :
    (0 + ∑ s ∈ range 4, B (0 + s)) + (0 + ∑ s ∈ range 4, B (4 + s)) = ∑ n ∈ range 8, B n := by
  rw [zero_add, zero_add, show (8 : ℕ) = 4 + 4 from rfl, sum_range_add]
  simp only [zero_add]

/-- The whole law at the kernel's extents. -/
theorem blocks_eq_whole (g : ℕ → M) :
    (0 + ∑ s ∈ range 4, ∑ e : Fin 16384, g ((0 + s) * 16384 + e.val))
      + (0 + ∑ s ∈ range 4, ∑ e : Fin 16384, g ((4 + s) * 16384 + e.val))
      = ∑ d : Fin 131072, g d.val := by
  rw [two_cores_of_four (fun n => ∑ e : Fin 16384, g (n * 16384 + e.val))]
  exact (sum_fin_blocks g 8 16384).symm

end Cert.GramSums
-- ==== Proof.Bridge.lean ====
import proofs.«419732_j23716809408616_3_alg».proof.Proof.AccSum
import proofs.«419732_j23716809408616_3_alg».proof.Proof.HostIdx
import proofs.«419732_j23716809408616_3_alg».proof.Proof.RefIdx
import proofs.«419732_j23716809408616_3_alg».proof.Proof.RefTail
import proofs.«419732_j23716809408616_3_alg».proof.Proof.Sums

/-!
# The kernel's two matrices are the reference's

Entry (p, q) of the kernel's Gram matrix is core 0's four blocks' contributions on a zero plus core 1's four on a
zero; the reference's is the sum over all 131072 columns of `x(p, k) · x(q, k)`. The eight blocks of 16384 columns
tile the 131072, and addition on the extended reals is commutative and associative, so the two are equal
(`Cert.GramSums.blocks_eq_whole`); no entry has to be finite for this. The squared norms go the same way, the
reference's sum starting from the initial value zero. With the two matrices equal, the shared chain gives equal
losses.
-/

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ)

/-- The Gram matrices agree. -/
theorem gram_bridge (c : Dev nD) :
    gramOf (gramArr m c) = Cert.ReferenceIdeal.Read.val_main_v8 (F := Ideal) (xin m c) := by
  funext i
  obtain ⟨p, q, rfl⟩ : ∃ (p : Fin 128) (q : Fin 128), i = ix2 p q := ⟨i 0, i 1, eq_ix2 i⟩
  rw [gramOf_apply, gramArr0_apply, gramArr1_apply]
  refine Eq.trans ?_ (Cert.ReferenceIdeal.RefValue.gram_apply (xin m c) p q).symm
  refine (Cert.GramSums.blocks_eq_whole (fun d => xAt (xin m c) p.val d * xAt (xin m c) q.val d)).trans ?_
  exact Finset.sum_congr rfl fun k _ => by rw [xAt_ix2, xAt_ix2]

/-- Row p's squared norm, as the kernel's host side forms it, is the sum over all columns of `x(p, k)²`. -/
theorem sq_row (c : Dev nD) (p : Fin 128) :
    sqOf (sqArr m c) (ix1 p) = 0 + ∑ k : Fin 131072, xin m c (ix2 p k) * xin m c (ix2 p k) := by
  rw [sqOf_apply, sqArr0_apply, sqArr1_apply, zero_add (∑ k : Fin 131072, xin m c (ix2 p k) * xin m c (ix2 p k))]
  refine (Cert.GramSums.blocks_eq_whole (fun d => xAt (xin m c) p.val d * xAt (xin m c) p.val d)).trans ?_
  exact Finset.sum_congr rfl fun k _ => by rw [xAt_ix2]

/-- The matrices of squared norms agree. -/
theorem sqsum_bridge (c : Dev nD) :
    sqsumOf (sqArr m c) = Cert.ReferenceIdeal.Read.val_main_v6 (F := Ideal) (xin m c) := by
  funext i
  obtain ⟨p, q, rfl⟩ : ∃ (p : Fin 128) (q : Fin 128), i = ix2 p q := ⟨i 0, i 1, eq_ix2 i⟩
  rw [sqsumOf_apply, sq_row, sq_row]
  exact (Cert.ReferenceIdeal.RefValue.sqsum_apply (xin m c) p q).symm

/-- So the reference's result, computed from the same input and labels, is the kernel program's. -/
theorem result_eq (c : Dev nD) :
    Cert.ReferenceIdeal.Read.val_main_v39 (F := Ideal) (xin m c) (m ((c : Thread nD τ).loc main_arg1))
      = Pipeline.afterTail₀ cfgs (dats m) 0 (V0 m) [hostOps1] c main_v0 := by
  rw [Cert.ReferenceIdeal.RefValue.out_eq_tail, kres_eq_tail, final1, final2, gram_bridge, sqsum_bridge]

/-- The kernel program's run, read: the result buffer at what the lines after the region compute from the region's
    arrays, the arguments unchanged. -/
theorem krun (ρ : Dev nD → PrngReg) :
    θ_run defs (onTc (τ := τ) (main (F := Ideal))) ⟨m, fun _ => 0, ρ⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v0 (Pipeline.mem_restRefs_of main_v0 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.lean ====
/-
  A triplet loss over 128 rows of 131072 features, computed two ways, and the proof that over the extended reals the
  two programs return the same number from the same input and labels.

  The reference forms the squared norms `sq(p) = ∑ₖ x(p, k)²`, the Gram matrix `G(p, q) = ∑ₖ x(p, k) · x(q, k)`, the
  distances `d(p, q) = sqrt (max 1e-12 (sq(p) + sq(q) - 2 · G(p, q)))`, and from the labels the hardest positive and the
  hardest negative of every row across the two halves of the batch; the loss is the mean hinge of their difference
  plus 0.3. The kernel computes `sq` and `G` in one pass over `x`: two cores, each adding four blocks of 16384 columns
  into accumulators that start at zero, the two cores' totals added on the host; everything after that is the
  reference's own chain of operations, literal for literal.

  So the proof has three parts. The chain after `sq` and `G` is named once (`Cert.Triplet.tail`) and never opened:
  each program's result is the chain of its own two matrices. The kernel's two output arrays are read off its frame
  run: the accumulators are a fold over the grid points that restarts at each core's first point, and each core's
  last point writes its block. And the two pairs of matrices agree entry by entry, because eight blocks of 16384
  columns tile the 131072 and addition on the extended reals is commutative and associative; no entry needs to be
  finite for that, so the precondition is not used. The ideal pass rewrote nothing, so the kernel's idealization is
  its own text read over the extended reals.
-/
import proofs.«419732_j23716809408616_3_alg».proof.Defs
import proofs.«419732_j23716809408616_3_alg».proof.Proof.Gen.Kernel
import proofs.«419732_j23716809408616_3_alg».proof.Proof.Gen.Kernel.Frame
import proofs.«419732_j23716809408616_3_alg».proof.Proof.Gen.KernelIdeal
import proofs.«419732_j23716809408616_3_alg».proof.Proof.Gen.KernelIdeal.Frame
import proofs.«419732_j23716809408616_3_alg».proof.Proof.Gen.ReferenceIdeal
import proofs.«419732_j23716809408616_3_alg».proof.Proof.Gen.Pre_finite_inputs
import proofs.«419732_j23716809408616_3_alg».proof.Proof.Gen.ReferenceIdeal.Run
import proofs.«419732_j23716809408616_3_alg».proof.Proof.Gen.ReferenceIdeal.Read
import proofs.«419732_j23716809408616_3_alg».proof.Proof.Bridge
import Idealize.ShloMosaic.Adequacy
import Idealize.ShloMosaic.Init

noncomputable section

namespace Cert.Proof

open Idealize.ShloMosaic Idealize.SL.Sem

/-- The kernel program as printed runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From memories that agree on the input and the labels both programs end, with the same loss. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v0, Cert.KernelIdeal.KValue.krun m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2]
  exact Cert.KernelIdeal.KValue.result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
